-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x5 : Shape := ⟨3, ![64, 16384, 5]⟩
abbrev S24x4 : Shape := ⟨2, ![24, 4]⟩
abbrev S5x64 : Shape := ⟨2, ![5, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S64x16384x5 : S_.BroadcastsInDim S64x16384x5 (![] : Fin 0 → Fin S64x16384x5.rank)
  reducesTo_S64x16384x5_S_d0_1_2 : S64x16384x5.ReducesTo [0, 1, 2] S_
  h_S_ : 0 < S_.numel
  bcast_S_S24x4 : S_.BroadcastsInDim S24x4 (![] : Fin 0 → Fin S24x4.rank)
  reducesTo_S24x4_S_d0_1 : S24x4.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32x1 .f32) (main_arg8 : FVec F S1 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64 .f32) (main_arg5 : FVec F S64x32 .f32) (main_arg6 : FVec F S32 .f32) (main_arg7 : FVec F S32x1 .f32) (main_arg8 : FVec F S1 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S64x16384x5 .f32) (main_arg1 : FVec F S24x4 .f32) (main_arg2 : FVec F S24x4 .f32) (main_arg3 : FVec F S5x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S64x16384x5 .f32 := Host.absf main_arg0
  let main_cst : FVec F S_ .f32 := constant S_ .f32 0x7F800000#32
  let main_v1 : FVec F S64x16384x5 .f32 := broadcastInDim S64x16384x5 ![] bcast_S_S64x16384x5 main_cst
  let main_v2 : IVec S64x16384x5 1 := cmpf .olt main_v0 main_v1
  let main_c : IVec S_ 1 := constantI S_ 1 1#1
  let main_v3 : IVec S_ 1 := (fun x v => Host.reduce IntOp.andi x v reducesTo_S64x16384x5_S_d0_1_2 h_S_) main_v2 main_c
  let main_v4 : FVec F S24x4 .f32 := Host.absf main_arg1
  let main_cst_0 : FVec F S_ .f32 := constant S_ .f32 0x7F800000#32
  let main_v5 : FVec F S24x4 .f32 := broadcastInDim S24x4 ![] bcast_S_S24x4 main_cst_0
  let main_v6 : IVec S24x4 1 := cmpf .olt main_v4 main_v5
  let main_c_1 : IVec S_ 1 := constantI S_ 1 1#1
  let main_v7 : IVec S_ 1 := (fun x v => Host.reduce IntOp.andi x v reducesTo_S24x4_S_d0_1 h_S_) main_v6 main_c_1
  let main_v8 : IVec S_ 1 := andi main_v3 main_v7
  let main_v9 : FVec F S24x4 .f32 := Host.absf main_arg2
  let main_cst_2 : FVec F S_ .f32 := constant S_ .f32 0x7F800000#32
  let main_v10 : FVec F S24x4 .f32 := broadcastInDim S24x4 ![] bcast_S_S24x4 main_cst_2
  let main_v11 : IVec S24x4 1 := cmpf .olt main_v9 main_v10
  let main_c_3 : IVec S_ 1 := constantI S_ 1 1#1
  let main_v12 : IVec S_ 1 := (fun x v => Host.reduce IntOp.andi x v reducesTo_S24x4_S_d0_1 h_S_) main_v11 main_c_3
  let main_v13 : IVec S_ 1 := andi main_v8 main_v12
  let main_v14 : FVec F S5x64 .f32 := Host.absf main_arg3
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg4 main_arg5 main_arg6 main_arg7 main_arg8 main_v13 main_v16
-- ==== Kernel.lean ====
abbrev S64x16384x5 : Shape := ⟨3, ![64, 16384, 5]⟩
abbrev S24x4 : Shape := ⟨2, ![24, 4]⟩
abbrev S5x64 : Shape := ⟨2, ![5, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1048576x5 : Shape := ⟨2, ![1048576, 5]⟩
abbrev S5x1048576 : Shape := ⟨2, ![5, 1048576]⟩
abbrev S64x1 : Shape := ⟨2, ![64, 1]⟩
abbrev S1x1 : Shape := ⟨2, ![1, 1]⟩
abbrev S1048576 : Shape := ⟨1, ![1048576]⟩
abbrev S5x16384 : Shape := ⟨2, ![5, 16384]⟩
abbrev S16384 : Shape := ⟨1, ![16384]⟩
abbrev S4x16384 : Shape := ⟨2, ![4, 16384]⟩
abbrev S1x16384 : Shape := ⟨2, ![1, 16384]⟩
abbrev S24x16384 : Shape := ⟨2, ![24, 16384]⟩
abbrev S64x16384 : Shape := ⟨2, ![64, 16384]⟩
abbrev S32x16384 : Shape := ⟨2, ![32, 16384]⟩

abbrev nBuf : Space → Nat
  | .hbm => 16
  | .vmem => 12
  | .smem => 0
  | _ => 0

abbrev bufTy : (tb : Table) → Fin (tcTables nBuf tb) → BufTy
  | .hbm, ⟨0, _⟩ => ⟨S64x16384x5, .f32⟩
  | .hbm, ⟨1, _⟩ => ⟨S24x4, .f32⟩
  | .hbm, ⟨2, _⟩ => ⟨S24x4, .f32⟩
  | .hbm, ⟨3, _⟩ => ⟨S5x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1048576x5, .f32⟩
  | .hbm, ⟨10, _⟩ => ⟨S5x1048576, .f32⟩
  | .hbm, ⟨11, _⟩ => ⟨S64x1, .f32⟩
  | .hbm, ⟨12, _⟩ => ⟨S32x1, .f32⟩
  | .hbm, ⟨13, _⟩ => ⟨S1x1, .f32⟩
  | .hbm, ⟨14, _⟩ => ⟨S1048576, .f32⟩
  | .hbm, ⟨15, _⟩ => ⟨S64x16384, .f32⟩
  | .local _ .vmem, ⟨0, _⟩ => ⟨S5x16384, .f32⟩
  | .local _ .vmem, ⟨1, _⟩ => ⟨S5x16384, .f32⟩
  | .local _ .vmem, ⟨2, _⟩ => ⟨S24x4, .f32⟩
  | .local _ .vmem, ⟨3, _⟩ => ⟨S24x4, .f32⟩
  | .local _ .vmem, ⟨4, _⟩ => ⟨S5x64, .f32⟩
  | .local _ .vmem, ⟨5, _⟩ => ⟨S64x1, .f32⟩
  | .local _ .vmem, ⟨6, _⟩ => ⟨S64x32, .f32⟩
  | .local _ .vmem, ⟨7, _⟩ => ⟨S32x1, .f32⟩
  | .local _ .vmem, ⟨8, _⟩ => ⟨S32x1, .f32⟩
  | .local _ .vmem, ⟨9, _⟩ => ⟨S1x1, .f32⟩
  | .local _ .vmem, ⟨10, _⟩ => ⟨S16384, .f32⟩
  | .local _ .vmem, ⟨11, _⟩ => ⟨S16384, .f32⟩
  | _, _ => ⟨S64x16384x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S5x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x16384x5_S1048576x5 : S64x16384x5.ShapeCasts S1048576x5
  transposes_S1048576x5_S5x1048576_1_0 : S1048576x5.Transposes [1, 0] S5x1048576
  shapeCasts_S64_S64x1 : S64.ShapeCasts S64x1
  shapeCasts_S32_S32x1 : S32.ShapeCasts S32x1
  shapeCasts_S1_S1x1 : S1.ShapeCasts S1x1
  inb_S5x16384_S4x16384_0_0 : ∀ a, (![0, 0] : Fin 2 → Nat) a + S4x16384.size a ≤ S5x16384.size a
  h_S4x16384 : 0 < S4x16384.numel
  shapeCasts_S4x16384_S4x16384 : S4x16384.ShapeCasts S4x16384
  inb_S5x16384_S1x16384_4_0 : ∀ a, (![4, 0] : Fin 2 → Nat) a + S1x16384.size a ≤ S5x16384.size a
  h_S1x16384 : 0 < S1x16384.numel
  shapeCasts_S1x16384_S1x16384 : S1x16384.ShapeCasts S1x16384
  reduces_S4x16384_S16384 : S4x16384.Reduces [0] S16384
  shapeCasts_S16384_S1x16384 : S16384.ShapeCasts S1x16384
  broadcasts_S1x16384_S4x16384 : S1x16384.Broadcasts S4x16384
  iota_S24x16384_d0_w32 : S24x16384.Iotas .tc 32 [0]
  broadcasts_S1x16384_S24x16384 : S1x16384.Broadcasts S24x16384
  natLt_1_32 : 1 < 32
  bitsLt_bf16_f32 : FTy.bits .bf16 < FTy.bits .f32
  inb_S24x4_S24x4_0_0 : ∀ a, (![0, 0] : Fin 2 → Nat) a + S24x4.size a ≤ S24x4.size a
  h_S24x4 : 0 < S24x4.numel
  concatenates_S4x16384_S1x16384_S5x16384_d0 : Shape.Concatenates [S4x16384, S1x16384] S5x16384 0
  inb_S5x64_S5x64_0_0 : ∀ a, (![0, 0] : Fin 2 → Nat) a + S5x64.size a ≤ S5x64.size a
  h_S5x64 : 0 < S5x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S64x32_S64x32_0_0 : ∀ a, (![0, 0] : Fin 2 → Nat) a + S64x32.size a ≤ S64x32.size a
  h_S64x32 : 0 < S64x32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  shapeCasts_S1x16384_S16384 : S1x16384.ShapeCasts S16384
  inb_S16384_S16384_0 : ∀ a, (![0] : Fin 1 → Nat) a + S16384.size a ≤ S16384.size a
  h_S16384 : 0 < S16384.numel
  shapeCasts_S1048576_S64x16384 : S1048576.ShapeCasts S64x16384
  dot_S24x4_S24x16384_S4x16384_0_0_1_1_n_n_wf : DotDims.WF S24x4 S24x16384 S4x16384 [0] [0] [1] [1] [] []
  dot_S5x64_S5x16384_S64x16384_0_0_1_1_n_n_wf : DotDims.WF S5x64 S5x16384 S64x16384 [0] [0] [1] [1] [] []
  dot_S64x32_S64x16384_S32x16384_0_0_1_1_n_n_wf : DotDims.WF S64x32 S64x16384 S32x16384 [0] [0] [1] [1] [] []
  dot_S32x1_S32x16384_S1x16384_0_0_1_1_n_n_wf : DotDims.WF S32x1 S32x16384 S1x16384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x16384.size a ≤ S5x1048576.size a
  hwx0_0 : ∀ i : grid0.Coords, EltTy.bits .f32 = 32 ∨ (Rect.block (s := S5x1048576) S5x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x4.size a ≤ S24x4.size a
  hwx0_1 : ∀ i : grid0.Coords, EltTy.bits .f32 = 32 ∨ (Rect.block (s := S24x4) S24x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x4.size a ≤ S24x4.size a
  hwx0_2 : ∀ i : grid0.Coords, EltTy.bits .f32 = 32 ∨ (Rect.block (s := S24x4) S24x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64.size a ≤ S5x64.size a
  hwx0_3 : ∀ i : grid0.Coords, EltTy.bits .f32 = 32 ∨ (Rect.block (s := S5x64) S5x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16384.size a ≤ S1048576.size a
  hwx0_9 : ∀ i : grid0.Coords, EltTy.bits .f32 = 32 ∨ (Rect.block (s := S1048576) S16384.size (cc0_transform_9 i) (hinb0_9 i)).WholeWords (EltTy.packing .f32)

variable [Facts₀]

def dot_S24x4_S24x16384_S4x16384_0_0_1_1_n_n : DotDims S24x4 S24x16384 S4x16384 where
  lhsContracting := [0]
  rhsContracting := [0]
  lhsNonContracting := [1]
  rhsNonContracting := [1]
  lhsBatch := []
  rhsBatch := []
  wf := dot_S24x4_S24x16384_S4x16384_0_0_1_1_n_n_wf
def dot_S5x64_S5x16384_S64x16384_0_0_1_1_n_n : DotDims S5x64 S5x16384 S64x16384 where
  lhsContracting := [0]
  rhsContracting := [0]
  lhsNonContracting := [1]
  rhsNonContracting := [1]
  lhsBatch := []
  rhsBatch := []
  wf := dot_S5x64_S5x16384_S64x16384_0_0_1_1_n_n_wf
def dot_S64x32_S64x16384_S32x16384_0_0_1_1_n_n : DotDims S64x32 S64x16384 S32x16384 where
  lhsContracting := [0]
  rhsContracting := [0]
  lhsNonContracting := [1]
  rhsNonContracting := [1]
  lhsBatch := []
  rhsBatch := []
  wf := dot_S64x32_S64x16384_S32x16384_0_0_1_1_n_n_wf
def dot_S32x1_S32x16384_S1x16384_0_0_1_1_n_n : DotDims S32x1 S32x16384 S1x16384 where
  lhsContracting := [0]
  rhsContracting := [0]
  lhsNonContracting := [1]
  rhsNonContracting := [1]
  lhsBatch := []
  rhsBatch := []
  wf := dot_S32x1_S32x16384_S1x16384_0_0_1_1_n_n_wf

abbrev win0_0 : Pipeline.Window sig grid0 :=
  Pipeline.Window.ofSpec (Memref.whole main_v1) S5x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x16384x5 : Shape := ⟨3, ![64, 16384, 5]⟩
abbrev S24x4 : Shape := ⟨2, ![24, 4]⟩
abbrev S5x64 : Shape := ⟨2, ![5, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1048576x5 : Shape := ⟨2, ![1048576, 5]⟩
abbrev S1048576x1 : Shape := ⟨2, ![1048576, 1]⟩
abbrev S1048576 : Shape := ⟨1, ![1048576]⟩
abbrev S_ : Shape := ⟨0, ![]⟩
abbrev S1048576x4 : Shape := ⟨2, ![1048576, 4]⟩
abbrev S1048576x64 : Shape := ⟨2, ![1048576, 64]⟩
abbrev S1x64 : Shape := ⟨2, ![1, 64]⟩
abbrev S1048576x32 : Shape := ⟨2, ![1048576, 32]⟩
abbrev S1x32 : Shape := ⟨2, ![1, 32]⟩
abbrev S1x1 : Shape := ⟨2, ![1, 1]⟩
abbrev S64x16384 : Shape := ⟨2, ![64, 16384]⟩

abbrev nBuf : Space → Nat
  | .hbm => 89
  | .vmem => 0
  | .smem => 0
  | _ => 0

abbrev bufTy : (tb : Table) → Fin (tcTables nBuf tb) → BufTy
  | .hbm, ⟨0, _⟩ => ⟨S64x16384x5, .f32⟩
  | .hbm, ⟨1, _⟩ => ⟨S24x4, .f32⟩
  | .hbm, ⟨2, _⟩ => ⟨S24x4, .f32⟩
  | .hbm, ⟨3, _⟩ => ⟨S5x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1048576x5, .f32⟩
  | .hbm, ⟨10, _⟩ => ⟨S1048576x1, .f32⟩
  | .hbm, ⟨11, _⟩ => ⟨S1048576, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S1048576, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576x4, .f32⟩
  | .hbm, ⟨25, _⟩ => ⟨S_, .f32⟩
  | .hbm, ⟨26, _⟩ => ⟨S1048576, .f32⟩
  | .hbm, ⟨27, _⟩ => ⟨S1048576x1, .f32⟩
  | .hbm, ⟨28, _⟩ => ⟨S_, .f32⟩
  | .hbm, ⟨29, _⟩ => ⟨S1048576x1, .f32⟩
  | .hbm, ⟨30, _⟩ => ⟨S1048576x1, .f32⟩
  | .hbm, ⟨31, _⟩ => ⟨S1048576x4, .f32⟩
  | .hbm, ⟨32, _⟩ => ⟨S1048576x4, .f32⟩
  | .hbm, ⟨33, _⟩ => ⟨S1048576x4, .f32⟩
  | .hbm, ⟨34, _⟩ => ⟨S_, .f32⟩
  | .hbm, ⟨35, _⟩ => ⟨S1048576, .f32⟩
  | .hbm, ⟨36, _⟩ => ⟨S1048576x1, .f32⟩
  | .hbm, ⟨37, _⟩ => ⟨S_, .f32⟩
  | .hbm, ⟨38, _⟩ => ⟨S1048576x1, .f32⟩
  | .hbm, ⟨39, _⟩ => ⟨S1048576x1, .f32⟩
  | .hbm, ⟨40, _⟩ => ⟨S1048576x4, .f32⟩
  | .hbm, ⟨41, _⟩ => ⟨S1048576x4, .f32⟩
  | .hbm, ⟨42, _⟩ => ⟨S_, .f32⟩
  | .hbm, ⟨43, _⟩ => ⟨S1048576x1, .f32⟩
  | .hbm, ⟨44, _⟩ => ⟨S1048576x1, .f32⟩
  | .hbm, ⟨45, _⟩ => ⟨S1048576x1, .f32⟩
  | .hbm, ⟨46, _⟩ => ⟨S1048576x4, .f32⟩
  | .hbm, ⟨47, _⟩ => ⟨S1048576x4, .f32⟩
  | .hbm, ⟨48, _⟩ => ⟨S_, .i32⟩
  | .hbm, ⟨49, _⟩ => ⟨S1048576, .i32⟩
  | .hbm, ⟨50, _⟩ => ⟨S1048576, .i1⟩
  | .hbm, ⟨51, _⟩ => ⟨S_, .i32⟩
  | .hbm, ⟨52, _⟩ => ⟨S1048576, .i32⟩
  | .hbm, ⟨53, _⟩ => ⟨S1048576, .i32⟩
  | .hbm, ⟨54, _⟩ => ⟨S1048576, .i32⟩
  | .hbm, ⟨55, _⟩ => ⟨S1048576x1, .i32⟩
  | .hbm, ⟨56, _⟩ => ⟨S1048576x4, .f32⟩
  | .hbm, ⟨57, _⟩ => ⟨S1048576x4, .f32⟩
  | .hbm, ⟨58, _⟩ => ⟨S_, .i32⟩
  | .hbm, ⟨59, _⟩ => ⟨S1048576, .i32⟩
  | .hbm, ⟨60, _⟩ => ⟨S1048576, .i1⟩
  | .hbm, ⟨61, _⟩ => ⟨S_, .i32⟩
  | .hbm, ⟨62, _⟩ => ⟨S1048576, .i32⟩
  | .hbm, ⟨63, _⟩ => ⟨S1048576, .i32⟩
  | .hbm, ⟨64, _⟩ => ⟨S1048576, .i32⟩
  | .hbm, ⟨65, _⟩ => ⟨S1048576x1, .i32⟩
  | .hbm, ⟨66, _⟩ => ⟨S1048576x4, .f32⟩
  | .hbm, ⟨67, _⟩ => ⟨S1048576x4, .f32⟩
  | .hbm, ⟨68, _⟩ => ⟨S1048576x1, .f32⟩
  | .hbm, ⟨69, _⟩ => ⟨S1048576x5, .f32⟩
  | .hbm, ⟨70, _⟩ => ⟨S1048576x64, .f32⟩
  | .hbm, ⟨71, _⟩ => ⟨S1x64, .f32⟩
  | .hbm, ⟨72, _⟩ => ⟨S1048576x64, .f32⟩
  | .hbm, ⟨73, _⟩ => ⟨S1048576x64, .f32⟩
  | .hbm, ⟨74, _⟩ => ⟨S_, .f32⟩
  | .hbm, ⟨75, _⟩ => ⟨S1048576x64, .f32⟩
  | .hbm, ⟨76, _⟩ => ⟨S1048576x64, .f32⟩
  | .hbm, ⟨77, _⟩ => ⟨S1048576x32, .f32⟩
  | .hbm, ⟨78, _⟩ => ⟨S1x32, .f32⟩
  | .hbm, ⟨79, _⟩ => ⟨S1048576x32, .f32⟩
  | .hbm, ⟨80, _⟩ => ⟨S1048576x32, .f32⟩
  | .hbm, ⟨81, _⟩ => ⟨S_, .f32⟩
  | .hbm, ⟨82, _⟩ => ⟨S1048576x32, .f32⟩
  | .hbm, ⟨83, _⟩ => ⟨S1048576x32, .f32⟩
  | .hbm, ⟨84, _⟩ => ⟨S1048576x1, .f32⟩
  | .hbm, ⟨85, _⟩ => ⟨S1x1, .f32⟩
  | .hbm, ⟨86, _⟩ => ⟨S1048576x1, .f32⟩
  | .hbm, ⟨87, _⟩ => ⟨S1048576x1, .f32⟩
  | .hbm, ⟨88, _⟩ => ⟨S64x16384, .f32⟩
  | _, _ => ⟨S64x16384x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  shapeCasts_S64x16384x5_S1048576x5 : S64x16384x5.ShapeCasts S1048576x5
  slices_S1048576x5_S1048576x1_0_4 : S1048576x5.Slices ![0, 4] S1048576x1
  shapeCasts_S1048576x1_S1048576 : S1048576x1.ShapeCasts S1048576
  bcast_S_S1048576 : S_.BroadcastsInDim S1048576 (![] : Fin 0 → Fin S1048576.rank)
  slices_S1048576x5_S1048576x4_0_0 : S1048576x5.Slices ![0, 0] S1048576x4
  reducesTo_S1048576x4_S1048576_d1 : S1048576x4.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x4_0_1 : S1048576x1.BroadcastsInDim S1048576x4 (![0, 1] : Fin 2 → Fin S1048576x4.rank)
  concatenates_S1048576x4_S1048576x1_S1048576x5_d1 : Shape.Concatenates [S1048576x4, S1048576x1] S1048576x5 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S64x16384 : S1048576x1.ShapeCasts S64x16384
  gather_S24x4_S1048576x1_S1048576x4_1_0_n_n_0_1_14_wf : GatherDims.WF S24x4 S1048576x1 S1048576x4 [1] [0] [] [0] [] 1 ![1, 4]
  dot_S1048576x5_S5x64_S1048576x64_1_0_0_1_n_n_wf : DotDims.WF S1048576x5 S5x64 S1048576x64 [1] [0] [0] [1] [] []
  dot_S1048576x64_S64x32_S1048576x32_1_0_0_1_n_n_wf : DotDims.WF S1048576x64 S64x32 S1048576x32 [1] [0] [0] [1] [] []
  dot_S1048576x32_S32x1_S1048576x1_1_0_0_1_n_n_wf : DotDims.WF S1048576x32 S32x1 S1048576x1 [1] [0] [0] [1] [] []

variable [Facts₀]

def gather_S24x4_S1048576x1_S1048576x4_1_0_n_n_0_1_14 : GatherDims S24x4 S1048576x1 S1048576x4 where
  offsetDims := [1]
  collapsedSliceDims := [0]
  operandBatchingDims := []
  startIndicesBatchingDims := []
  startIndexMap := [0]
  indexVectorDim := 1
  sliceSizes := ![1, 4]
  wf := gather_S24x4_S1048576x1_S1048576x4_1_0_n_n_0_1_14_wf
def dot_S1048576x5_S5x64_S1048576x64_1_0_0_1_n_n : DotDims S1048576x5 S5x64 S1048576x64 where
  lhsContracting := [1]
  rhsContracting := [0]
  lhsNonContracting := [0]
  rhsNonContracting := [1]
  lhsBatch := []
  rhsBatch := []
  wf := dot_S1048576x5_S5x64_S1048576x64_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf

class Facts : Prop extends Facts₀ where

variable [Facts]
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.Spec.lean ====
/-
  One token of the router, as plain arithmetic on the extended reals, away from every program.

  A token carries five numbers: four features x₀ … x₃ and a position p. The four features are normalized
  (mean μ = (Σ x)/4, centred c = x − μ, variance v = (Σ c²)/4), scaled and shifted by row id of two 24 × 4
  tables, where id is p · 24 truncated toward zero and clipped to 0 … 23; the four results and p feed a
  5 → 64 → 32 → 1 perceptron with max(·, 0) between its layers.

  The two programs spell this differently in three places:
    • c · rsqrt(v + ε)              against  c / sqrt(v + ε);
    • Σ over rows of table · [row = id]   against  the table read at row id (with jnp's wrap of a
      negative index, dead because id ≥ 0);
    • weight · activation           against  activation · weight.
  tokK is the first spelling, tokR the second; tokK_eq_tokR joins them when the four features are real
  numbers (then v + ε is a positive real, where rsqrt and 1/sqrt agree; at v + ε ≤ 0 or ⊥ they do not).
-/
import Idealize.ShloMosaic.PureOps.Ideal
import proofs.«118490_j64175401337509_1_alg».proof.Proof.LibERealSums

noncomputable section

namespace Cert.Router

open Idealize.ShloMosaic

/-! ## The literals both programs carry (the same words on both sides) -/

/-- +0.0 -/
abbrev zeroW : EReal := Ideal.ofBits .f32 0x00000000#32
/-- 4.0, the divisor of both means -/
abbrev fourW : EReal := Ideal.ofBits .f32 0x40800000#32
/-- the f32 nearest 1e-5 -/
abbrev epsW : EReal := Ideal.ofBits .f32 0x3727C5AC#32
/-- 24.0, the number of table rows -/
abbrev layersW : EReal := Ideal.ofBits .f32 0x41C00000#32

/-! ## The normalization -/

/-- The mean of four numbers. -/
def mean4 (f : Fin 4 → EReal) : EReal := Ideal.div (∑ k : Fin 4, f k) fourW
/-- A feature less the features' mean. -/
def centered (x : Fin 4 → EReal) (j : Fin 4) : EReal := x j - mean4 x
/-- The (biased) variance of the four features. -/
def variance (x : Fin 4 → EReal) : EReal := mean4 fun k => centered x k * centered x k

/-! ## The table row -/

/-- p · 24 truncated toward zero, clipped to 0 … 23, as a 32-bit word. -/
def layerId (p : EReal) : BitVec 32 :=
  IntOp.minsi 23#32 (IntOp.maxsi 0#32 (Ideal.fptosi 32 (p * layersW)))

/-- [row l is the chosen one], as the number 1 or 0: the compare's bit widened to a word and read signed. -/
def oneHot (l : Fin 24) (v : BitVec 32) : EReal :=
  ((((IntOp.cmpi .eq (BitVec.ofNat 32 l.val) v).setWidth 32).toInt : ℝ) : EReal)

/-- jnp's wrap of a negative index: v + 24 below zero, v otherwise. -/
def wrapIdx (v : BitVec 32) : BitVec 32 :=
  Scalar.select (IntOp.cmpi .slt v 0#32) (IntOp.addi v 24#32) v

/-- The row a gather at start index v reads: v read signed, clamped into 0 … 23. -/
def rowOf (v : BitVec 32) : Fin 24 := ⟨min v.toInt.toNat 23, by omega⟩

/-! ## The normalized, scaled and shifted feature, in both spellings -/

/-- c · rsqrt(v + ε) · (Σ_l γ[l, j] · [l = id]) + Σ_l β[l, j] · [l = id] -/
def lnK (x : Fin 4 → EReal) (p : EReal) (g b : Fin 24 → Fin 4 → EReal) (j : Fin 4) : EReal :=
  centered x j * Ideal.rsqrt (variance x + epsW) * (∑ l : Fin 24, g l j * oneHot l (layerId p))
    + ∑ l : Fin 24, b l j * oneHot l (layerId p)

/-- c / sqrt(v + ε) · γ[row, j] + β[row, j] -/
def lnR (x : Fin 4 → EReal) (p : EReal) (g b : Fin 24 → Fin 4 → EReal) (j : Fin 4) : EReal :=
  Ideal.div (centered x j) (Ideal.sqrt (variance x + epsW)) * g (rowOf (wrapIdx (layerId p))) j
    + b (rowOf (wrapIdx (layerId p))) j

/-- The perceptron's input: the four normalized features, then the position. -/
def hvec (ln : Fin 4 → EReal) (p : EReal) : Fin 5 → EReal :=
  fun f => if h : f.val < 4 then ln ⟨f.val, h⟩ else p

/-! ## The perceptron, in both spellings -/

/-- weight · activation -/
def mlpK (h : Fin 5 → EReal) (w1 : Fin 5 → Fin 64 → EReal) (c1 : Fin 64 → EReal) (w2 : Fin 64 → Fin 32 → EReal)
    (c2 : Fin 32 → EReal) (w3 : Fin 32 → EReal) (c3 : EReal) : EReal :=
  (∑ q : Fin 32, w3 q * max ((∑ o : Fin 64, w2 o q * max ((∑ f : Fin 5, w1 f o * h f) + c1 o) zeroW) + c2 q) zeroW) + c3

/-- activation · weight -/
def mlpR (h : Fin 5 → EReal) (w1 : Fin 5 → Fin 64 → EReal) (c1 : Fin 64 → EReal) (w2 : Fin 64 → Fin 32 → EReal)
    (c2 : Fin 32 → EReal) (w3 : Fin 32 → EReal) (c3 : EReal) : EReal :=
  (∑ q : Fin 32, max ((∑ o : Fin 64, max ((∑ f : Fin 5, h f * w1 f o) + c1 o) zeroW * w2 o q) + c2 q) zeroW * w3 q) + c3

/-- One token's result, first spelling. -/
def tokK (x : Fin 4 → EReal) (p : EReal) (g b : Fin 24 → Fin 4 → EReal) (w1 : Fin 5 → Fin 64 → EReal) (c1 : Fin 64 → EReal)
    (w2 : Fin 64 → Fin 32 → EReal) (c2 : Fin 32 → EReal) (w3 : Fin 32 → EReal) (c3 : EReal) : EReal :=
  mlpK (hvec (lnK x p g b) p) w1 c1 w2 c2 w3 c3

/-- One token's result, second spelling. -/
def tokR (x : Fin 4 → EReal) (p : EReal) (g b : Fin 24 → Fin 4 → EReal) (w1 : Fin 5 → Fin 64 → EReal) (c1 : Fin 64 → EReal)
    (w2 : Fin 64 → Fin 32 → EReal) (c2 : Fin 32 → EReal) (w3 : Fin 32 → EReal) (c3 : EReal) : EReal :=
  mlpR (hvec (lnR x p g b) p) w1 c1 w2 c2 w3 c3

/-! ## The literals' values -/

theorem four_eq : fourW = ((4 : ℝ) : EReal) := by
  simp [Ideal.ofBits, Ideal.ieee, -EReal.coe_mul]; norm_num

theorem eps_pos : ∃ e : ℝ, 0 < e ∧ epsW = (e : EReal) := by
  refine ⟨(10995116 : ℝ) * (2 : ℝ) ^ (-40 : ℤ), by positivity, ?_⟩
  simp [Ideal.ofBits, Ideal.ieee, -EReal.coe_mul]

/-! ## rsqrt against 1/sqrt -/

/-- At a positive real the two roads to c/√v meet. -/
theorem mul_rsqrt_eq_div_sqrt (c : EReal) (v : ℝ) (hv : 0 < v) :
    c * Ideal.rsqrt (v : EReal) = Ideal.div c (Ideal.sqrt (v : EReal)) := by
  have hs : Real.sqrt v ≠ 0 := (Real.sqrt_pos.2 hv).ne'
  rw [Ideal.rsqrt_coe, Ideal.sqrt_coe, if_neg (not_lt.2 hv.le), if_neg hv.ne', if_neg (not_lt.2 hv.le),
    Ideal.div_coe hs, one_div]

/-! ## The mean and the variance of real features are real, the variance not negative -/

theorem mean4_coe (r : Fin 4 → ℝ) : mean4 (fun k => ((r k : ℝ) : EReal)) = (((∑ k : Fin 4, r k) / 4 : ℝ) : EReal) := by
  unfold mean4
  rw [four_eq, Ideal.div_coe (by norm_num : (4 : ℝ) ≠ 0), ← Cert.ERealSums.coe_finset_sum, ← EReal.coe_mul]
  congr 1; ring

theorem variance_add_eps_pos (x : Fin 4 → EReal) (hx : ∀ k, ∃ r : ℝ, x k = (r : EReal)) :
    ∃ v : ℝ, 0 < v ∧ variance x + epsW = (v : EReal) := by
  choose r hr using hx
  obtain ⟨e, he, hee⟩ := eps_pos
  have hx' : x = fun k => ((r k : ℝ) : EReal) := funext hr
  have hc : ∀ k, centered x k = ((r k - (∑ i : Fin 4, r i) / 4 : ℝ) : EReal) := fun k => by
    unfold centered; rw [hx', mean4_coe, ← EReal.coe_sub]
  have hv : variance x = (((∑ k : Fin 4, (r k - (∑ i : Fin 4, r i) / 4) * (r k - (∑ i : Fin 4, r i) / 4)) / 4 : ℝ) : EReal) := by
    unfold variance
    rw [show (fun k => centered x k * centered x k)
        = fun k => (((r k - (∑ i : Fin 4, r i) / 4) * (r k - (∑ i : Fin 4, r i) / 4) : ℝ) : EReal) from
      funext fun k => by rw [hc k, ← EReal.coe_mul], mean4_coe]
  refine ⟨(∑ k : Fin 4, (r k - (∑ i : Fin 4, r i) / 4) * (r k - (∑ i : Fin 4, r i) / 4)) / 4 + e, ?_, ?_⟩
  · have : 0 ≤ ∑ k : Fin 4, (r k - (∑ i : Fin 4, r i) / 4) * (r k - (∑ i : Fin 4, r i) / 4) :=
      Finset.sum_nonneg fun k _ => mul_self_nonneg _
    positivity
  · rw [hv, hee, ← EReal.coe_add]

/-! ## The clipped id is a row number, and the one-hot sum reads that row -/

theorem layerId_range (p : EReal) : 0 ≤ (layerId p).toInt ∧ (layerId p).toInt ≤ 23 := by
  unfold layerId IntOp.minsi IntOp.maxsi
  generalize Ideal.fptosi 32 (p * layersW) = w
  have h0 : (0#32 : BitVec 32).toInt = 0 := by decide
  have h23 : (23#32 : BitVec 32).toInt = 23 := by decide
  by_cases hw : w.slt 0#32
  · rw [if_pos hw]
    have : ¬ (23#32 : BitVec 32).slt 0#32 := by decide
    rw [if_neg this, h0]; omega
  · rw [if_neg hw]
    rw [BitVec.slt, decide_eq_true_eq, h0] at hw
    by_cases h2 : (23#32 : BitVec 32).slt w
    · rw [if_pos h2, h23]; omega
    · rw [if_neg h2]
      rw [BitVec.slt, decide_eq_true_eq, h23] at h2
      omega

theorem wrapIdx_of_nonneg (v : BitVec 32) (h : 0 ≤ v.toInt) : wrapIdx v = v := by
  unfold wrapIdx IntOp.cmpi Scalar.select
  have : v.slt 0#32 = false := by
    rw [BitVec.slt]; have h0 : (0#32 : BitVec 32).toInt = 0 := by decide
    rw [h0]; exact decide_eq_false (by omega)
  simp [this]

theorem oneHot_eq (l : Fin 24) (v : BitVec 32) : oneHot l v = if BitVec.ofNat 32 l.val = v then 1 else 0 := by
  unfold oneHot IntOp.cmpi
  by_cases h : BitVec.ofNat 32 l.val = v
  · rw [if_pos h]
    have : (BitVec.ofNat 32 l.val == v) = true := by simpa using h
    simp [this]
  · rw [if_neg h]
    have : (BitVec.ofNat 32 l.val == v) = false := by simpa using h
    simp [this]

/-- The sum over the rows of table · [row = v] is the table at row v, for a word v in 0 … 23. -/
theorem sum_oneHot (t : Fin 24 → EReal) (v : BitVec 32) (h0 : 0 ≤ v.toInt) (h23 : v.toInt ≤ 23) :
    ∑ l : Fin 24, t l * oneHot l v = t (rowOf v) := by
  have hrow : (rowOf v).val = v.toInt.toNat := by unfold rowOf; show min _ 23 = _; omega
  -- a word whose signed reading is not negative reads the same unsigned
  have hnat : v.toInt = (v.toNat : ℤ) := by
    have hc := BitVec.toInt_eq_toNat_cond v
    have hlt := v.isLt
    split_ifs at hc <;> omega
  have htn : v.toInt.toNat = v.toNat := by rw [hnat]; exact Int.toNat_natCast _
  have hv : BitVec.ofNat 32 (rowOf v).val = v := by
    rw [hrow, htn]
    apply BitVec.eq_of_toNat_eq
    rw [BitVec.toNat_ofNat]
    have hlt := v.isLt
    omega
  rw [Finset.sum_eq_single (rowOf v)]
  · rw [oneHot_eq, if_pos hv, mul_one]
  · intro l _ hl
    rw [oneHot_eq, if_neg, mul_zero]
    intro h
    apply hl
    apply Fin.ext
    have e : BitVec.ofNat 32 l.val = BitVec.ofNat 32 (rowOf v).val := h.trans hv.symm
    have := congrArg BitVec.toNat e
    simp only [BitVec.toNat_ofNat] at this
    have hl' := l.isLt
    have hr' := (rowOf v).isLt
    omega
  · intro h; exact absurd (Finset.mem_univ _) h

/-! ## The two spellings agree -/

theorem lnK_eq_lnR (x : Fin 4 → EReal) (hx : ∀ k, ∃ r : ℝ, x k = (r : EReal)) (p : EReal) (g b : Fin 24 → Fin 4 → EReal)
    (j : Fin 4) : lnK x p g b j = lnR x p g b j := by
  obtain ⟨v, hv, hve⟩ := variance_add_eps_pos x hx
  obtain ⟨h0, h23⟩ := layerId_range p
  unfold lnK lnR
  rw [hve, mul_rsqrt_eq_div_sqrt _ v hv, wrapIdx_of_nonneg _ h0,
    sum_oneHot (fun l => g l j) _ h0 h23, sum_oneHot (fun l => b l j) _ h0 h23]

theorem mlpK_eq_mlpR (h : Fin 5 → EReal) (w1 : Fin 5 → Fin 64 → EReal) (c1 : Fin 64 → EReal) (w2 : Fin 64 → Fin 32 → EReal)
    (c2 : Fin 32 → EReal) (w3 : Fin 32 → EReal) (c3 : EReal) : mlpK h w1 c1 w2 c2 w3 c3 = mlpR h w1 c1 w2 c2 w3 c3 := by
  unfold mlpK mlpR
  refine congrArg (· + c3) (Finset.sum_congr rfl fun q _ => ?_)
  rw [mul_comm]
  refine congrArg (fun z => max (z + c2 q) zeroW * w3 q) (Finset.sum_congr rfl fun o _ => ?_)
  rw [mul_comm]
  exact congrArg (fun z => max (z + c1 o) zeroW * w2 o q) (Finset.sum_congr rfl fun f _ => mul_comm _ _)

/-- ONE TOKEN: with real features the two spellings give the same number. -/
theorem tokK_eq_tokR (x : Fin 4 → EReal) (hx : ∀ k, ∃ r : ℝ, x k = (r : EReal)) (p : EReal) (g b : Fin 24 → Fin 4 → EReal)
    (w1 : Fin 5 → Fin 64 → EReal) (c1 : Fin 64 → EReal) (w2 : Fin 64 → Fin 32 → EReal) (c2 : Fin 32 → EReal)
    (w3 : Fin 32 → EReal) (c3 : EReal) :
    tokK x p g b w1 c1 w2 c2 w3 c3 = tokR x p g b w1 c1 w2 c2 w3 c3 := by
  unfold tokK tokR
  rw [show lnK x p g b = lnR x p g b from funext (lnK_eq_lnR x hx p g b), mlpK_eq_mlpR]

end Cert.Router

end
-- ==== Proof.Arrays.lean ====
/-
  The router over whole arrays: the result at (batch b, position s) is one token's number (Proof/Spec.lean) of
  x[b, s, 0 … 3] (the features), x[b, s, 4] (the position), the two 24 × 4 tables and the perceptron's
  weights and biases. outK is the first spelling at every token, outR the second; they are one array when
  every entry of x is a real number. flatK and flatR are the same numbers laid out token by token
  (token n = 16384 · b + s), which is how both programs hold them before their last reshape.
-/
import Idealize.ShloMosaic.Lib.ValueIdx
import proofs.«118490_j64175401337509_1_alg».proof.Proof.Spec

noncomputable section

namespace Cert.Router

open Idealize.ShloMosaic Idealize.ShloMosaic.ValueIdx

/-! ## Arrays as the token function takes them -/

/-- A matrix by its two coordinates. -/
abbrev matOf {a b : Nat} (W : FVec Ideal ⟨2, ![a, b]⟩ .f32) : Fin a → Fin b → EReal := fun p q => W (ix2 p q)
/-- A vector by its coordinate. -/
abbrev vecOf {a : Nat} (C : FVec Ideal ⟨1, ![a]⟩ .f32) : Fin a → EReal := fun p => C (ix1 p)
/-- A one-column matrix by its row. -/
abbrev colOf {a : Nat} (C : FVec Ideal ⟨2, ![a, 1]⟩ .f32) : Fin a → EReal := fun p => C (ix2 p (0 : Fin 1))

/-- Token (b, s)'s four features. -/
def feats (X : FVec Ideal ⟨3, ![64, 16384, 5]⟩ .f32) (b : Fin 64) (s : Fin 16384) : Fin 4 → EReal :=
  fun k => X (ix3 b s ⟨k.val, by omega⟩)

/-- Token (b, s)'s position. -/
def posn (X : FVec Ideal ⟨3, ![64, 16384, 5]⟩ .f32) (b : Fin 64) (s : Fin 16384) : EReal :=
  X (ix3 b s ⟨4, by omega⟩)

/-- Token n's batch: n / 16384. -/
def tokB (n : Fin 1048576) : Fin 64 := ⟨n.val / 16384, by omega⟩
/-- Token n's position in its batch: n % 16384. -/
def tokS (n : Fin 1048576) : Fin 16384 := ⟨n.val % 16384, Nat.mod_lt _ (by decide)⟩

/-! ## The result, token by token and as the [64, 16384] array -/

/-- Token by token, first spelling. -/
def flatK (X : FVec Ideal ⟨3, ![64, 16384, 5]⟩ .f32) (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) (n : Fin 1048576) : EReal :=
  tokK (feats X (tokB n) (tokS n)) (posn X (tokB n) (tokS n)) (matOf G) (matOf B) (matOf W1) (vecOf C1) (matOf W2) (vecOf C2)
    (colOf W3) (C3 (ix1 (0 : Fin 1)))

/-- Token by token, second spelling. -/
def flatR (X : FVec Ideal ⟨3, ![64, 16384, 5]⟩ .f32) (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) (n : Fin 1048576) : EReal :=
  tokR (feats X (tokB n) (tokS n)) (posn X (tokB n) (tokS n)) (matOf G) (matOf B) (matOf W1) (vecOf C1) (matOf W2) (vecOf C2)
    (colOf W3) (C3 (ix1 (0 : Fin 1)))

/-- The result array, first spelling at every token. -/
def outK (X : FVec Ideal ⟨3, ![64, 16384, 5]⟩ .f32) (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) : FVec Ideal ⟨2, ![64, 16384]⟩ .f32 :=
  fun i => tokK (feats X (i 0) (i 1)) (posn X (i 0) (i 1)) (matOf G) (matOf B) (matOf W1) (vecOf C1) (matOf W2) (vecOf C2)
    (colOf W3) (C3 (ix1 (0 : Fin 1)))

/-- The result array, second spelling at every token. -/
def outR (X : FVec Ideal ⟨3, ![64, 16384, 5]⟩ .f32) (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) : FVec Ideal ⟨2, ![64, 16384]⟩ .f32 :=
  fun i => tokR (feats X (i 0) (i 1)) (posn X (i 0) (i 1)) (matOf G) (matOf B) (matOf W1) (vecOf C1) (matOf W2) (vecOf C2)
    (colOf W3) (C3 (ix1 (0 : Fin 1)))

/-- The array at (b, s) is the token-by-token layout at n = 16384 · b + s. -/
theorem outK_eq_flatK (X : FVec Ideal ⟨3, ![64, 16384, 5]⟩ .f32) (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) (i : (⟨2, ![64, 16384]⟩ : Shape).Idx) (n : Fin 1048576)
    (hn : n.val = (i 0).val * 16384 + (i 1).val) :
    outK X G B W1 C1 W2 C2 W3 C3 i = flatK X G B W1 C1 W2 C2 W3 C3 n := by
  have h0 : (i 0).val < 64 := idx2_lt0 i
  have h1 : (i 1).val < 16384 := idx2_lt1 i
  have hb : tokB n = i 0 := Fin.ext (by show n.val / 16384 = (i 0).val; omega)
  have hs : tokS n = i 1 := Fin.ext (by show n.val % 16384 = (i 1).val; omega)
  unfold outK flatK
  rw [hb, hs]

theorem outR_eq_flatR (X : FVec Ideal ⟨3, ![64, 16384, 5]⟩ .f32) (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) (i : (⟨2, ![64, 16384]⟩ : Shape).Idx) (n : Fin 1048576)
    (hn : n.val = (i 0).val * 16384 + (i 1).val) :
    outR X G B W1 C1 W2 C2 W3 C3 i = flatR X G B W1 C1 W2 C2 W3 C3 n := by
  have h0 : (i 0).val < 64 := idx2_lt0 i
  have h1 : (i 1).val < 16384 := idx2_lt1 i
  have hb : tokB n = i 0 := Fin.ext (by show n.val / 16384 = (i 0).val; omega)
  have hs : tokS n = i 1 := Fin.ext (by show n.val % 16384 = (i 1).val; omega)
  unfold outR flatR
  rw [hb, hs]

/-- With every entry of x real the two arrays are one. -/
theorem outK_eq_outR (X : FVec Ideal ⟨3, ![64, 16384, 5]⟩ .f32) (hX : ∀ i, ∃ r : ℝ, X i = (r : EReal))
    (G B : FVec Ideal ⟨2, ![24, 4]⟩ .f32) (W1 : FVec Ideal ⟨2, ![5, 64]⟩ .f32)
    (C1 : FVec Ideal ⟨1, ![64]⟩ .f32) (W2 : FVec Ideal ⟨2, ![64, 32]⟩ .f32) (C2 : FVec Ideal ⟨1, ![32]⟩ .f32)
    (W3 : FVec Ideal ⟨2, ![32, 1]⟩ .f32) (C3 : FVec Ideal ⟨1, ![1]⟩ .f32) :
    outK X G B W1 C1 W2 C2 W3 C3 = outR X G B W1 C1 W2 C2 W3 C3 := by
  funext i
  unfold outK outR
  exact tokK_eq_tokR _ (fun k => hX _) _ _ _ _ _ _ _ _ _

end Cert.Router

end
-- ==== Proof.RefLN.lean ====
/-
  The reference's first half, read at a token: its slices of the reshaped input are the token's features and
  position, its normalized, scaled and shifted features are the second spelling lnR, and the concatenation it
  feeds its perceptron is hvec of those and the position.
-/
import proofs.«118490_j64175401337509_1_alg».proof.Proof.Gen.ReferenceIdeal.Read
import proofs.«118490_j64175401337509_1_alg».proof.Proof.Arrays
import Idealize.ShloMosaic.Lib.Pipeline.Value
import Idealize.ShloMosaic.Lib.ValueIdx

noncomputable section

namespace Cert.ReferenceIdeal.RouterRef

open Cert.ReferenceIdeal Cert.ReferenceIdeal.Gen Cert.ReferenceIdeal.Read Idealize.ShloMosaic Idealize.ShloMosaic.ValueIdx Cert.Router

/-! ## Indices: where each layout operation reads, by coordinates -/

/-- The sum over a row's four columns reads column k of the row. -/
private theorem idx8 (n : Fin 1048576) (k : Fin 4) : idx_main_v8 (ix1 n) k = ix2 n k :=
  funext fun a => Fin.ext (by match a with | ⟨0, _⟩ => rfl | ⟨1, _⟩ => rfl)
private theorem idx15 (n : Fin 1048576) (k : Fin 4) : idx_main_v15 (ix1 n) k = ix2 n k :=
  funext fun a => Fin.ext (by match a with | ⟨0, _⟩ => rfl | ⟨1, _⟩ => rfl)
/-- A row vector kept as a one-column matrix reads the row. -/
private theorem idx9 (n : Fin 1048576) : idx_main_v9 (ix2 n (0 : Fin 1)) = ix1 n :=
  funext fun a => Fin.ext (by match a with | ⟨0, _⟩ => rfl)
private theorem idx16 (n : Fin 1048576) : idx_main_v16 (ix2 n (0 : Fin 1)) = ix1 n :=
  funext fun a => Fin.ext (by match a with | ⟨0, _⟩ => rfl)
private theorem idx31 (n : Fin 1048576) : idx_main_v31 (ix2 n (0 : Fin 1)) = ix1 n :=
  funext fun a => Fin.ext (by match a with | ⟨0, _⟩ => rfl)
private theorem idx39 (n : Fin 1048576) : idx_main_v39 (ix2 n (0 : Fin 1)) = ix1 n :=
  funext fun a => Fin.ext (by match a with | ⟨0, _⟩ => rfl)
private theorem idx42 (n : Fin 1048576) : idx_main_v42 (ix2 n (0 : Fin 1)) = ix1 n :=
  funext fun a => Fin.ext (by match a with | ⟨0, _⟩ => rfl)
/-- A one-column matrix spread over four columns reads its one column. -/
private theorem idx12 (n : Fin 1048576) (j : Fin 4) : idx_main_v12 (ix2 n j) = ix2 n (0 : Fin 1) :=
  funext fun a => Fin.ext (by match a with | ⟨0, _⟩ => rfl | ⟨1, _⟩ => rfl)
private theorem idx19 (n : Fin 1048576) (j : Fin 4) : idx_main_v19 (ix2 n j) = ix2 n (0 : Fin 1) :=
  funext fun a => Fin.ext (by match a with | ⟨0, _⟩ => rfl | ⟨1, _⟩ => rfl)
private theorem idx24 (n : Fin 1048576) (j : Fin 4) : idx_main_v24 (ix2 n j) = ix2 n (0 : Fin 1) :=
  funext fun a => Fin.ext (by match a with | ⟨0, _⟩ => rfl | ⟨1, _⟩ => rfl)

/-! ## The two slices of the reshaped input -/

/-- The slice [:, 0:4] of the reshaped input at (token n, k) is feature k of token n. -/
theorem features_apply (x0 : (⟨S64x16384x5, .f32⟩ : BufTy).Contents (Elt Ideal)) (n : Fin 1048576) (k : Fin 4) :
    val_main_v7 (F := Ideal) x0 (ix2 n k) = feats x0 (tokB n) (tokS n) k := by
  rw [val_main_v7_apply, val_main_v0_apply]
  unfold feats
  have hn := n.isLt
  have hk := k.isLt
  -- flat position 5 n + k of the [64, 16384, 5] array is (n / 16384, n % 16384, k)
  refine congrArg x0 (funext fun a => Fin.ext ?_)
  match a with
  | ⟨0, _⟩ => show (n.val * 5 + k.val) / 81920 = n.val / 16384; omega
  | ⟨1, _⟩ => show (n.val * 5 + k.val) / 5 % 16384 = n.val % 16384; omega
  | ⟨2, _⟩ => show (n.val * 5 + k.val) % 5 = k.val; omega

/-- The slice [:, 4] of the reshaped input at token n is its position. -/
theorem position_apply (x0 : (⟨S64x16384x5, .f32⟩ : BufTy).Contents (Elt Ideal)) (n : Fin 1048576) :
    val_main_v2 (F := Ideal) x0 (ix1 n) = posn x0 (tokB n) (tokS n) := by
  rw [val_main_v2_apply, val_main_v1_apply, val_main_v0_apply]
  unfold posn
  have hn := n.isLt
  -- flat position 5 n + 4 of the [64, 16384, 5] array is (n / 16384, n % 16384, 4)
  refine congrArg x0 (funext fun a => Fin.ext ?_)
  match a with
  | ⟨0, _⟩ => show (n.val / 1 * 5 + (4 + 0)) / 81920 = n.val / 16384; omega
  | ⟨1, _⟩ => show (n.val / 1 * 5 + (4 + 0)) / 5 % 16384 = n.val % 16384; omega
  | ⟨2, _⟩ => show (n.val / 1 * 5 + (4 + 0)) % 5 = 4; omega

/-! ## The normalization -/

/-- The row mean, kept as a one-column matrix. -/
private theorem mean_apply (x0 : (⟨S64x16384x5, .f32⟩ : BufTy).Contents (Elt Ideal)) (n : Fin 1048576) :
    val_main_v11 (F := Ideal) x0 (ix2 n (0 : Fin 1)) = mean4 (feats x0 (tokB n) (tokS n)) := by
  rw [val_main_v11_apply, val_main_v9_apply, idx9, val_main_v8_apply, val_main_v10_apply, val_main_cst_1_apply,
    val_main_cst_2_apply]
  unfold mean4
  show Ideal.div (Ideal.ofBits .f32 0x00000000#32 + ∑ k : Fin 4, val_main_v7 (F := Ideal) x0 (idx_main_v8 (ix1 n) k)) fourW = _
  rw [Ideal.ofBits_zero_f32, zero_add]
  refine congrArg (fun s => Ideal.div s fourW) (Finset.sum_congr rfl fun k _ => ?_)
  rw [idx8, features_apply]

/-- A feature less its row's mean (the reference computes it twice, once for the variance and once for the quotient). -/
private theorem centered13_apply (x0 : (⟨S64x16384x5, .f32⟩ : BufTy).Contents (Elt Ideal)) (n : Fin 1048576) (j : Fin 4) :
    val_main_v13 (F := Ideal) x0 (ix2 n j) = centered (feats x0 (tokB n) (tokS n)) j := by
  rw [val_main_v13_apply, val_main_v12_apply, idx12, mean_apply, features_apply]
  rfl

private theorem centered20_apply (x0 : (⟨S64x16384x5, .f32⟩ : BufTy).Contents (Elt Ideal)) (n : Fin 1048576) (j : Fin 4) :
    val_main_v20 (F := Ideal) x0 (ix2 n j) = centered (feats x0 (tokB n) (tokS n)) j := by
  rw [val_main_v20_apply, val_main_v19_apply, idx19, mean_apply, features_apply]
  rfl

/-- The row variance, kept as a one-column matrix. -/
private theorem variance_apply (x0 : (⟨S64x16384x5, .f32⟩ : BufTy).Contents (Elt Ideal)) (n : Fin 1048576) :
    val_main_v18 (F := Ideal) x0 (ix2 n (0 : Fin 1)) = variance (feats x0 (tokB n) (tokS n)) := by
  rw [val_main_v18_apply, val_main_v16_apply, idx16, val_main_v15_apply, val_main_v17_apply, val_main_cst_3_apply,
    val_main_cst_4_apply]
  unfold variance mean4
  show Ideal.div (Ideal.ofBits .f32 0x00000000#32 + ∑ k : Fin 4, val_main_v14 (F := Ideal) x0 (idx_main_v15 (ix1 n) k)) fourW = _
  rw [Ideal.ofBits_zero_f32, zero_add]
  refine congrArg (fun s => Ideal.div s fourW) (Finset.sum_congr rfl fun k _ => ?_)
  rw [idx15, val_main_v14_apply, centered13_apply]
  rfl

/-- The centred feature over the root of the variance plus ε. -/
private theorem normalized_apply (x0 : (⟨S64x16384x5, .f32⟩ : BufTy).Contents (Elt Ideal)) (n : Fin 1048576) (j : Fin 4) :
    val_main_v25 (F := Ideal) x0 (ix2 n j)
      = Ideal.div (centered (feats x0 (tokB n) (tokS n)) j) (Ideal.sqrt (variance (feats x0 (tokB n) (tokS n)) + epsW)) := by
  rw [val_main_v25_apply, centered20_apply, val_main_v24_apply, idx24, val_main_v23_apply, val_main_v22_apply,
    variance_apply, val_main_v21_apply, val_main_cst_5_apply]
  rfl

/-! ## The table row -/

/-- The position times 24, truncated and clipped to 0 … 23. -/
private theorem layerId_apply (x0 : (⟨S64x16384x5, .f32⟩ : BufTy).Contents (Elt Ideal)) (n : Fin 1048576) :
    val_main_v6 (F := Ideal) x0 (ix1 n) = layerId (posn x0 (tokB n) (tokS n)) := by
  rw [val_main_v6_apply, val_main_call0_v4_apply, val_main_call0_v3_apply, val_main_c_0_apply, val_main_call0_v2_apply,
    val_main_call0_v1_apply, val_main_call0_v0_apply, val_main_c_apply, val_main_v5_apply, val_main_v4_apply,
    val_main_v3_apply, val_main_cst_apply, position_apply]
  rfl

/-- The wrap of a negative index, as the first table's gather takes it … -/
private theorem wrap30_apply (x0 : (⟨S64x16384x5, .f32⟩ : BufTy).Contents (Elt Ideal)) (n : Fin 1048576) :
    val_main_v30 (F := Ideal) x0 (ix1 n) = wrapIdx (layerId (posn x0 (tokB n) (tokS n))) := by
  rw [val_main_v30_apply, val_main_v27_apply, val_main_v29_apply, val_main_v26_apply, val_main_c_6_apply,
    val_main_v28_apply, val_main_c_7_apply, layerId_apply]
  rfl

/-- … and as the second's. -/
private theorem wrap38_apply (x0 : (⟨S64x16384x5, .f32⟩ : BufTy).Contents (Elt Ideal)) (n : Fin 1048576) :
    val_main_v38 (F := Ideal) x0 (ix1 n) = wrapIdx (layerId (posn x0 (tokB n) (tokS n))) := by
  rw [val_main_v38_apply, val_main_v35_apply, val_main_v37_apply, val_main_v34_apply, val_main_c_8_apply,
    val_main_v36_apply, val_main_c_9_apply, layerId_apply]
  rfl

/-- THE GATHER of rows of a 24 × 4 table at one start index per token: element (n, j) is the table at the row the
    start index names (read signed, clamped into 0 … 23) and column j. Operand axis 0 is collapsed and is the one the
    start index addresses; operand axis 1 is the result's offset axis. -/
private theorem gather_row_apply {α : Type} (x : S24x4.Idx → α) (idx : IVec S1048576x1 32) (n : Fin 1048576) (j : Fin 4) :
    Host.gather gather_S24x4_S1048576x1_S1048576x4_1_0_n_n_0_1_14 x idx (ix2 n j)
      = x (ix2 (rowOf (idx (ix2 n (0 : Fin 1)))) j) := by
  unfold Host.gather
  refine congrArg x (funext fun a => Fin.ext ?_)
  match a with
  | ⟨0, _⟩ =>
    show gather_S24x4_S1048576x1_S1048576x4_1_0_n_n_0_1_14.start (ix2 n j) idx 0
        + gather_S24x4_S1048576x1_S1048576x4_1_0_n_n_0_1_14.batchCoord (ix2 n j) 0
        + gather_S24x4_S1048576x1_S1048576x4_1_0_n_n_0_1_14.offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S24x4_S1048576x1_S1048576x4_1_0_n_n_0_1_14.startIndexMap from List.mem_singleton.mpr rfl)]
    have hsi : gather_S24x4_S1048576x1_S1048576x4_1_0_n_n_0_1_14.siIdx (ix2 n j)
        ⟨List.idxOf (0 : Fin 2) gather_S24x4_S1048576x1_S1048576x4_1_0_n_n_0_1_14.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S24x4_S1048576x1_S1048576x4_1_0_n_n_0_1_14.start (ix2 n j) idx 1
        + gather_S24x4_S1048576x1_S1048576x4_1_0_n_n_0_1_14.batchCoord (ix2 n j) 1
        + gather_S24x4_S1048576x1_S1048576x4_1_0_n_n_0_1_14.offCoord (ix2 n j) 1 = j.val
    rw [GatherDims.batchCoord_eq_zero _ _ _ List.not_mem_nil]
    unfold GatherDims.start
    rw [dif_neg (show ¬ (1 : Fin 2) ∈ gather_S24x4_S1048576x1_S1048576x4_1_0_n_n_0_1_14.startIndexMap by decide)]
    simp only [Nat.add_zero, Nat.zero_add]
    unfold GatherDims.offCoord
    rw [dif_pos (show (1 : Fin 2) ∈ gather_S24x4_S1048576x1_S1048576x4_1_0_n_n_0_1_14.sKept by decide)]
    rfl

/-- The first table's row for token n, column j. -/
private theorem scale_apply (x0 : (⟨S64x16384x5, .f32⟩ : BufTy).Contents (Elt Ideal)) (x1 : (⟨S24x4, .f32⟩ : BufTy).Contents (Elt Ideal))
    (n : Fin 1048576) (j : Fin 4) :
    val_main_v32 (F := Ideal) x0 x1 (ix2 n j) = matOf x1 (rowOf (wrapIdx (layerId (posn x0 (tokB n) (tokS n))))) j := by
  unfold val_main_v32
  rw [gather_row_apply, val_main_v31_apply, idx31, wrap30_apply]

/-- The second table's row for token n, column j. -/
private theorem shift_apply (x0 : (⟨S64x16384x5, .f32⟩ : BufTy).Contents (Elt Ideal)) (x2 : (⟨S24x4, .f32⟩ : BufTy).Contents (Elt Ideal))
    (n : Fin 1048576) (j : Fin 4) :
    val_main_v40 (F := Ideal) x0 x2 (ix2 n j) = matOf x2 (rowOf (wrapIdx (layerId (posn x0 (tokB n) (tokS n))))) j := by
  unfold val_main_v40
  rw [gather_row_apply, val_main_v39_apply, idx39, wrap38_apply]

/-! ## The normalized, scaled and shifted features, and the perceptron's input -/

/-- The normalized, scaled and shifted feature j of token n: the second spelling. -/
theorem layerNorm_apply (x0 : (⟨S64x16384x5, .f32⟩ : BufTy).Contents (Elt Ideal)) (x1 x2 : (⟨S24x4, .f32⟩ : BufTy).Contents (Elt Ideal)) (n : Fin 1048576) (j : Fin 4) :
    val_main_v41 (F := Ideal) x0 x1 x2 (ix2 n j)
      = lnR (feats x0 (tokB n) (tokS n)) (posn x0 (tokB n) (tokS n)) (matOf x1) (matOf x2) j := by
  rw [val_main_v41_apply, val_main_v33_apply, normalized_apply, scale_apply, shift_apply]
  rfl

/-- The perceptron's input row of token n: the four features above, then the position. -/
theorem hidden_apply (x0 : (⟨S64x16384x5, .f32⟩ : BufTy).Contents (Elt Ideal)) (x1 x2 : (⟨S24x4, .f32⟩ : BufTy).Contents (Elt Ideal)) (n : Fin 1048576) (f : Fin 5) :
    val_main_v43 (F := Ideal) x0 x1 x2 (ix2 n f)
      = hvec (lnR (feats x0 (tokB n) (tokS n)) (posn x0 (tokB n) (tokS n)) (matOf x1) (matOf x2)) (posn x0 (tokB n) (tokS n)) f := by
  unfold val_main_v43 hvec
  by_cases hf : f.val < 4
  · -- columns 0 … 3 come from the first piece
    rw [dif_pos hf]
    refine (concatenate_pair_apply_left (1 : Fin 2) (val_main_v41 (F := Ideal) x0 x1 x2) (val_main_v42 (F := Ideal) x0)
      concatenates_S1048576x4_S1048576x1_S1048576x5_d1 (ix2 n f) rfl (ix2 n (⟨f.val, hf⟩ : Fin 4))
      (fun b => by match b with | ⟨0, _⟩ => rfl | ⟨1, _⟩ => rfl)).trans ?_
    exact layerNorm_apply x0 x1 x2 n ⟨f.val, hf⟩
  · -- column 4 is the second piece's one column
    rw [dif_neg hf]
    have hf4 : f.val = 4 := by have := f.isLt; omega
    refine (concatenate_pair_apply_right (1 : Fin 2) (val_main_v41 (F := Ideal) x0 x1 x2) (val_main_v42 (F := Ideal) x0)
      concatenates_S1048576x4_S1048576x1_S1048576x5_d1 (ix2 n f) rfl rfl (ix2 n (0 : Fin 1))
      (fun b hb => by
        match b with
        | ⟨0, _⟩ => rfl
        | ⟨1, _⟩ => exact absurd rfl hb)
      (by show (0 : Nat) + 4 = f.val; omega)).trans ?_
    rw [val_main_v42_apply, idx42, position_apply]

end Cert.ReferenceIdeal.RouterRef

end
-- ==== Proof.RefMLP.lean ====
/-
  The reference's second half, read at a token: three matrix products with a bias and max(·, 0) between them are the
  perceptron mlpR of the token's input row; with the first half the array before the last reshape is flatR, and
  the reshaped [64, 16384] result is outR.
-/
import proofs.«118490_j64175401337509_1_alg».proof.Proof.Gen.ReferenceIdeal.Read
import proofs.«118490_j64175401337509_1_alg».proof.Proof.Arrays
import proofs.«118490_j64175401337509_1_alg».proof.Proof.RefLN
import Idealize.ShloMosaic.Lib.Pipeline.Value
import Idealize.ShloMosaic.Lib.ValueIdx

noncomputable section

namespace Cert.ReferenceIdeal.RouterRef

open Cert.ReferenceIdeal Cert.ReferenceIdeal.Gen Cert.ReferenceIdeal.Read Idealize.ShloMosaic Idealize.ShloMosaic.ValueIdx Cert.Router

/-! ## Where each layer reads its operands: the composed index maps at an index given by its coordinates -/

/-- The first product at (n, o) reads its left operand at (n, k) … -/
private theorem lidx44 (n : Fin 1048576) (o : Fin 64) : lidx_main_v44 (ix2 n o) = fun k => ix2 n k := by
  funext k a; match a with | ⟨0, _⟩ => rfl | ⟨1, _⟩ => rfl
/-- … and its right operand at (k, o). -/
private theorem ridx44 (n : Fin 1048576) (o : Fin 64) : ridx_main_v44 (ix2 n o) = fun k => ix2 k o := by
  funext k a; match a with | ⟨0, _⟩ => rfl | ⟨1, _⟩ => rfl
/-- The first bias, broadcast twice, is read at o. -/
private theorem bias46 (n : Fin 1048576) (o : Fin 64) : idx_main_v45 (idx_main_v46 (ix2 n o)) = ix1 o := by
  funext a; match a with | ⟨0, _⟩ => rfl

/-- The second product at (n, q) reads its left operand at (n, k) … -/
private theorem lidx49 (n : Fin 1048576) (q : Fin 32) : lidx_main_v49 (ix2 n q) = fun k => ix2 n k := by
  funext k a; match a with | ⟨0, _⟩ => rfl | ⟨1, _⟩ => rfl
/-- … and its right operand at (k, q). -/
private theorem ridx49 (n : Fin 1048576) (q : Fin 32) : ridx_main_v49 (ix2 n q) = fun k => ix2 k q := by
  funext k a; match a with | ⟨0, _⟩ => rfl | ⟨1, _⟩ => rfl
/-- The second bias, broadcast twice, is read at q. -/
private theorem bias51 (n : Fin 1048576) (q : Fin 32) : idx_main_v50 (idx_main_v51 (ix2 n q)) = ix1 q := by
  funext a; match a with | ⟨0, _⟩ => rfl

/-- The third product at (n, 0) reads its left operand at (n, k) … -/
private theorem lidx54 (n : Fin 1048576) : lidx_main_v54 (ix2 n (0 : Fin 1)) = fun k => ix2 n k := by
  funext k a; match a with | ⟨0, _⟩ => rfl | ⟨1, _⟩ => rfl
/-- … and its right operand at (k, 0). -/
private theorem ridx54 (n : Fin 1048576) : ridx_main_v54 (ix2 n (0 : Fin 1)) = fun k => ix2 k (0 : Fin 1) := by
  funext k a; match a with | ⟨0, _⟩ => rfl | ⟨1, _⟩ => rfl
/-- The third bias, broadcast twice, is read at its one entry. -/
private theorem bias56 (n : Fin 1048576) : idx_main_v55 (idx_main_v56 (ix2 n (0 : Fin 1))) = ix1 (0 : Fin 1) := by
  funext a; match a with | ⟨0, _⟩ => rfl

/-! ## The three layers, each read at a token from the layer before -/

/-- First layer: max(Σ_f h[n, f] · W1[f, o] + c1[o], 0). -/
private theorem layer1 (x0 : (⟨S64x16384x5, .f32⟩ : BufTy).Contents (Elt Ideal)) (x1 x2 : (⟨S24x4, .f32⟩ : BufTy).Contents (Elt Ideal)) (x3 : (⟨S5x64, .f32⟩ : BufTy).Contents (Elt Ideal)) (x4 : (⟨S64, .f32⟩ : BufTy).Contents (Elt Ideal)) (n : Fin 1048576) (o : Fin 64) :
    val_main_v48 (F := Ideal) x0 x1 x2 x3 x4 (ix2 n o)
      = max ((∑ f : Fin 5, val_main_v43 (F := Ideal) x0 x1 x2 (ix2 n f) * x3 (ix2 f o)) + x4 (ix1 o)) zeroW := by
  rw [val_main_v48_apply, val_main_v47_apply, val_main_v44_apply, val_main_v46_apply, val_main_v45_apply,
    val_main_call1_v0_apply, val_main_call1_cst_apply, lidx44 n o, ridx44 n o, bias46 n o]
  rfl

/-- Second layer: max(Σ_o a1[n, o] · W2[o, q] + c2[q], 0). -/
private theorem layer2 (x0 : (⟨S64x16384x5, .f32⟩ : BufTy).Contents (Elt Ideal)) (x1 x2 : (⟨S24x4, .f32⟩ : BufTy).Contents (Elt Ideal)) (x3 : (⟨S5x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (n : Fin 1048576) (q : Fin 32) :
    val_main_v53 (F := Ideal) x0 x1 x2 x3 x4 x5 x6 (ix2 n q)
      = max ((∑ o : Fin 64, val_main_v48 (F := Ideal) x0 x1 x2 x3 x4 (ix2 n o) * x5 (ix2 o q)) + x6 (ix1 q)) zeroW := by
  rw [val_main_v53_apply, val_main_v52_apply, val_main_v49_apply, val_main_v51_apply, val_main_v50_apply,
    val_main_call2_v0_apply, val_main_call2_cst_apply, lidx49 n q, ridx49 n q, bias51 n q]
  rfl

/-- Third layer: Σ_q a2[n, q] · W3[q, 0] + c3[0]. -/
private theorem layer3 (x0 : (⟨S64x16384x5, .f32⟩ : BufTy).Contents (Elt Ideal)) (x1 x2 : (⟨S24x4, .f32⟩ : BufTy).Contents (Elt Ideal)) (x3 : (⟨S5x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (n : Fin 1048576) :
    val_main_v57 (F := Ideal) x0 x1 x2 x3 x4 x5 x6 x7 x8 (ix2 n (0 : Fin 1))
      = (∑ q : Fin 32, val_main_v53 (F := Ideal) x0 x1 x2 x3 x4 x5 x6 (ix2 n q) * x7 (ix2 q (0 : Fin 1))) + x8 (ix1 (0 : Fin 1)) := by
  rw [val_main_v57_apply, val_main_v54_apply, val_main_v56_apply, val_main_v55_apply, lidx54 n, ridx54 n, bias56 n]
  rfl

/-! ## The statements -/

/-- The last bias add at token n is the perceptron of that token's input row. -/
theorem perceptron_apply (x0 : (⟨S64x16384x5, .f32⟩ : BufTy).Contents (Elt Ideal)) (x1 x2 : (⟨S24x4, .f32⟩ : BufTy).Contents (Elt Ideal)) (x3 : (⟨S5x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (n : Fin 1048576) :
    val_main_v57 (F := Ideal) x0 x1 x2 x3 x4 x5 x6 x7 x8 (ix2 n (0 : Fin 1))
      = mlpR (fun f => val_main_v43 (F := Ideal) x0 x1 x2 (ix2 n f)) (matOf x3) (vecOf x4) (matOf x5) (vecOf x6) (colOf x7) (x8 (ix1 (0 : Fin 1))) := by
  rw [layer3]
  unfold mlpR
  refine congrArg (· + x8 (ix1 (0 : Fin 1))) (Finset.sum_congr rfl fun q _ => ?_)
  rw [layer2]
  refine congrArg (fun z => max (z + x6 (ix1 q)) zeroW * x7 (ix2 q (0 : Fin 1))) (Finset.sum_congr rfl fun o _ => ?_)
  rw [layer1]

/-- The array before the last reshape, token by token, is the second spelling. -/
theorem ref_flat (x0 : (⟨S64x16384x5, .f32⟩ : BufTy).Contents (Elt Ideal)) (x1 x2 : (⟨S24x4, .f32⟩ : BufTy).Contents (Elt Ideal)) (x3 : (⟨S5x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (n : Fin 1048576) :
    val_main_v57 (F := Ideal) x0 x1 x2 x3 x4 x5 x6 x7 x8 (ix2 n (0 : Fin 1)) = flatR x0 x1 x2 x3 x4 x5 x6 x7 x8 n := by
  rw [perceptron_apply]
  unfold flatR tokR
  exact congrArg (fun h => mlpR h (matOf x3) (vecOf x4) (matOf x5) (vecOf x6) (colOf x7) (x8 (ix1 (0 : Fin 1))))
    (funext fun f => hidden_apply x0 x1 x2 n f)

/-- THE REFERENCE'S RESULT is the second spelling at every token. -/
theorem ref_eq (x0 : (⟨S64x16384x5, .f32⟩ : BufTy).Contents (Elt Ideal)) (x1 x2 : (⟨S24x4, .f32⟩ : BufTy).Contents (Elt Ideal)) (x3 : (⟨S5x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) :
    val_main_v58 (F := Ideal) x0 x1 x2 x3 x4 x5 x6 x7 x8 = outR x0 x1 x2 x3 x4 x5 x6 x7 x8 := by
  funext i
  have h0 : (i 0).val < 64 := idx2_lt0 i
  have h1 : (i 1).val < 16384 := idx2_lt1 i
  -- the last reshape reads token 16384 · b + s at (b, s)
  have hidx : idx_main_v58 i = ix2 (⟨(i 0).val * 16384 + (i 1).val, by omega⟩ : Fin 1048576) (0 : Fin 1) := by
    funext a
    match a with
    | ⟨0, _⟩ => exact Fin.ext (Nat.div_one _)
    | ⟨1, _⟩ => rfl
  rw [val_main_v58_apply, hidx, ref_flat]
  exact (outR_eq_flatR x0 x1 x2 x3 x4 x5 x6 x7 x8 i _ rfl).symm

end Cert.ReferenceIdeal.RouterRef

end
-- ==== Proof.Entry.lean ====
/-
  The arrays the kernel's windows stage, as the region finds them, in terms of the program's arguments: the input
  reshaped to [1048576, 5] and transposed holds feature f of token n at (f, n); each bias reshaped to one column
  holds the bias. And what the precondition gives: every entry of the input is a real number.
-/
import proofs.«118490_j64175401337509_1_alg».proof.Proof.Gen.KernelIdeal.Frame
import proofs.«118490_j64175401337509_1_alg».proof.Proof.Gen.Pre_finite_inputs
import proofs.«118490_j64175401337509_1_alg».proof.Proof.Arrays
import proofs.«118490_j64175401337509_1_alg».proof.Defs
import Idealize.ShloMosaic.Lib.Pipeline.Value
import Idealize.ShloMosaic.Lib.ValueIdx
import Idealize.ShloMosaic.Lib.ValueLayout
import Idealize.ShloMosaic.Lib.StableHlo.Run
import Idealize.ShloMosaic.Lib.ReduceAll

noncomputable section

namespace Cert.KernelIdeal.RouterEntry

open Cert.KernelIdeal Cert.KernelIdeal.Gen Idealize.ShloMosaic Idealize.ShloMosaic.TcCoe Idealize.SL.Sem Idealize.ShloMosaic.ValueIdx Cert.Router

variable (m : (ℓ : Loc nD τ sig) → Buf (Elt Ideal) ℓ)

/-! ## Reading a reshape and a transpose at an index -/

/-- The [64, 16384, 5] array laid out as [1048576, 5] and transposed, read at (f, n): row-major position of
    (n / 16384, n % 16384, f) in the operand is (n / 16384 · 16384 + n % 16384) · 5 + f = n · 5 + f, that of (n, f). -/
private theorem features_read (X : S64x16384x5.Idx → EReal) (f : Fin 5) (n : Fin 1048576) :
    transpose S5x1048576 [1, 0] (shapeCast S1048576x5 X shapeCasts_S64x16384x5_S1048576x5) transposes_S1048576x5_S5x1048576_1_0 (ix2 f n)
      = X (ix3 (tokB n) (tokS n) f) := by
  refine (transpose_apply _ _ _ (ix2 f n) (ix2 n f) (fun b => match b with | ⟨0, _⟩ => rfl | ⟨1, _⟩ => rfl)).trans ?_
  refine shapeCast_apply _ _ _ _ ?_
  rw [Shape.rowMajor_val_three, Shape.rowMajor_val_two]
  show ((n.val / 16384) * 16384 + n.val % 16384) * 5 + f.val = n.val * 5 + f.val
  have := Nat.div_add_mod n.val 16384
  omega

/-- A vector of length a laid out as one column [a, 1] holds its entry o at (o, 0): position o · 1 + 0 = o. -/
private theorem column_read {a : ℕ} (X : (⟨1, ![a]⟩ : Shape).Idx → EReal) (h : (⟨1, ![a]⟩ : Shape).ShapeCasts ⟨2, ![a, 1]⟩) (o : Fin a) :
    shapeCast ⟨2, ![a, 1]⟩ X h (ix2 o (0 : Fin 1)) = X (ix1 o) := by
  refine shapeCast_apply _ _ _ _ ?_
  rw [Shape.rowMajor_val_one, Shape.rowMajor_val_two]
  show o.val = o.val * 1 + 0
  omega

/-! ## The four staged arrays as terms over the arguments -/

/-- The transposed input is the transpose of the input reshaped to [1048576, 5]. -/
private theorem V1_term (c : Dev nD) :
    (V m c main_v1 : S5x1048576.Idx → EReal) = transpose S5x1048576 [1, 0] (shapeCast S1048576x5 (m ((c.tc : Thread nD τ).loc main_arg0)) shapeCasts_S64x16384x5_S1048576x5) transposes_S1048576x5_S5x1048576_1_0 := by
  show StableHlo.after hostOps0 (fun b => m (c, b)) (Proc.devRef .tc main_v1) = _
  after_results
  rfl

/-- The first bias column is the first bias reshaped. -/
private theorem V2_term (c : Dev nD) :
    (V m c main_v2 : S64x1.Idx → EReal) = shapeCast S64x1 (m ((c.tc : Thread nD τ).loc main_arg4)) shapeCasts_S64_S64x1 := by
  show StableHlo.after hostOps0 (fun b => m (c, b)) (Proc.devRef .tc main_v2) = _
  after_results
  rfl

/-- The second bias column is the second bias reshaped. -/
private theorem V3_term (c : Dev nD) :
    (V m c main_v3 : S32x1.Idx → EReal) = shapeCast S32x1 (m ((c.tc : Thread nD τ).loc main_arg6)) shapeCasts_S32_S32x1 := by
  show StableHlo.after hostOps0 (fun b => m (c, b)) (Proc.devRef .tc main_v3) = _
  after_results
  rfl

/-- The last bias as 1 × 1 is the last bias reshaped. -/
private theorem V4_term (c : Dev nD) :
    (V m c main_v4 : S1x1.Idx → EReal) = shapeCast S1x1 (m ((c.tc : Thread nD τ).loc main_arg8)) shapeCasts_S1_S1x1 := by
  show StableHlo.after hostOps0 (fun b => m (c, b)) (Proc.devRef .tc main_v4) = _
  after_results
  rfl

/-! ## The staged arrays at an index -/

/-- The transposed input at (feature f, token n) is the input at (n / 16384, n % 16384, f). -/
theorem V_features (c : Dev nD) (f : Fin 5) (n : Fin 1048576) :
    (V m c main_v1 : S5x1048576.Idx → EReal) (ix2 f n) = m ((c.tc : Thread nD τ).loc main_arg0) (ix3 (tokB n) (tokS n) f) := by
  rw [V1_term]
  exact features_read _ f n

/-- The first bias as a column. -/
theorem V_bias1 (c : Dev nD) (o : Fin 64) :
    (V m c main_v2 : S64x1.Idx → EReal) (ix2 o (0 : Fin 1)) = m ((c.tc : Thread nD τ).loc main_arg4) (ix1 o) := by
  rw [V2_term]
  exact column_read _ _ o

/-- The second bias as a column. -/
theorem V_bias2 (c : Dev nD) (q : Fin 32) :
    (V m c main_v3 : S32x1.Idx → EReal) (ix2 q (0 : Fin 1)) = m ((c.tc : Thread nD τ).loc main_arg6) (ix1 q) := by
  rw [V3_term]
  exact column_read _ _ q

/-- The last bias as a 1 × 1 array. -/
theorem V_bias3 (c : Dev nD) :
    (V m c main_v4 : S1x1.Idx → EReal) (ix2 (0 : Fin 1) (0 : Fin 1)) = m ((c.tc : Thread nD τ).loc main_arg8) (ix1 (0 : Fin 1)) := by
  rw [V4_term]
  exact column_read _ _ 0

/-! ## What the precondition gives -/

/-- An extended real x with max(x, −x) < +∞ is a real number: at −∞ and at +∞ the maximum is +∞. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; simp [Ideal.cmp] at h
  | top => exfalso; simp [Ideal.cmp] at h
  | coe r => exact ⟨r, rfl⟩

/-- A conjunction of two one-bit arrays that is 1 at an index has its first operand 1 there. -/
private theorem andi_left {s : Shape} (x y : IVec s 1) (i : s.Idx) (h : andi x y i = 1#1) : x i = 1#1 :=
  (IntOp.andi_eq_one.1 h).1

/-- Under the precondition every entry of the input is a real number: the precondition is a conjunction of nine
    "every entry has |·| < +∞", the input's the innermost first operand. -/
theorem real_of_pre [hP : Cert.Pre_finite_inputs.Facts] (hpre : Cert.Pre_KernelIdeal m) (c : Dev nD) (i : S64x16384x5.Idx) :
    ∃ r : ℝ, m ((c.tc : Thread nD τ).loc main_arg0) i = (r : EReal) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2] at h
  have h3 := andi_left _ _ _ (andi_left _ _ _ (andi_left _ _ _ (andi_left _ _ _ (andi_left _ _ _ (andi_left _ _ _ (andi_left _ _ _ (andi_left _ _ _ h)))))))
  have e := Host.reduce_andi_all _ _ _ _ _ h3 i
  exact real_of_abs_lt _ e

end Cert.KernelIdeal.RouterEntry

end
-- ==== Proof.PayLN.lean ====
/-
  The kernel body's first payload read at one lane t of its block: the position row is passed through, and row j of
  the normalized, scaled and shifted features at lane t is the first spelling lnK of column t of the block (the
  mean and variance are sums down the column's four rows, the two 24-row tables are taken by a sum against the
  one-hot column of the clipped id).
-/
import proofs.«118490_j64175401337509_1_alg».proof.Proof.Gen.KernelIdeal.Skeleton
import proofs.«118490_j64175401337509_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RouterPay

open Cert.KernelIdeal Cert.KernelIdeal.Gen Idealize.ShloMosaic Idealize.ShloMosaic.ValueIdx Cert.Router

/-! ## The sum down a block's four rows -/

/-- The sum over the row axis of a 4-row block, at lane t, is the sum over the four rows of the block at (k, t). -/
private theorem colSum_apply (x : FVec Ideal S4x16384 .f32) (t : Fin 16384) :
    multiReduction (F := Ideal) .add [0] S16384 x 0x00000000#32 reduces_S4x16384_S16384 (.inl rfl) rfl (ix1 t)
      = ∑ k : Fin 4, x (ix2 k t) := by
  refine (Ideal.multiReduction_add_single x 0x00000000#32 reduces_S4x16384_S16384 (.inl rfl) rfl (ix1 t)).trans ?_
  refine Finset.sum_congr rfl fun k _ => congrArg x ?_
  funext a
  apply Fin.ext
  match a with
  | ⟨0, _⟩ => rfl
  | ⟨1, _⟩ => rfl

/-! ## The product of a 24-row table with a 24-row block, contracted over the rows -/

/-- The table's index at result (j, t) and row q: its row is q … -/
private theorem lhs_tab_0 (i : S4x16384.Idx) (q : dot_S24x4_S24x16384_S4x16384_0_0_1_1_n_n.contr.Idx) :
    (dot_S24x4_S24x16384_S4x16384_0_0_1_1_n_n.lhsIdx i q 0).val = (q ⟨0, by decide⟩).val :=
  dot_S24x4_S24x16384_S4x16384_0_0_1_1_n_n.lhsIdx_val_of_single rfl i q
/-- … and its column is j. -/
private theorem lhs_tab_1 (i : S4x16384.Idx) (q : dot_S24x4_S24x16384_S4x16384_0_0_1_1_n_n.contr.Idx) :
    (dot_S24x4_S24x16384_S4x16384_0_0_1_1_n_n.lhsIdx i q 1).val = (i 0).val := by
  unfold DotDims.lhsIdx
  rw [dif_neg (show ¬(1 : Fin S24x4.rank) ∈ dot_S24x4_S24x16384_S4x16384_0_0_1_1_n_n.lhsBatch by decide), dif_pos (show (1 : Fin S24x4.rank) ∈ dot_S24x4_S24x16384_S4x16384_0_0_1_1_n_n.lhsNonContracting by decide)]
  rfl
/-- The block's index at result (j, t) and row q: its row is q … -/
private theorem rhs_tab_0 (i : S4x16384.Idx) (q : dot_S24x4_S24x16384_S4x16384_0_0_1_1_n_n.contr.Idx) :
    (dot_S24x4_S24x16384_S4x16384_0_0_1_1_n_n.rhsIdx i q 0).val = (q ⟨0, by decide⟩).val :=
  dot_S24x4_S24x16384_S4x16384_0_0_1_1_n_n.rhsIdx_val_of_single rfl i q
/-- … and its lane is t. -/
private theorem rhs_tab_1 (i : S4x16384.Idx) (q : dot_S24x4_S24x16384_S4x16384_0_0_1_1_n_n.contr.Idx) :
    (dot_S24x4_S24x16384_S4x16384_0_0_1_1_n_n.rhsIdx i q 1).val = (i 1).val := by
  unfold DotDims.rhsIdx
  rw [dif_neg (show ¬(1 : Fin S24x16384.rank) ∈ dot_S24x4_S24x16384_S4x16384_0_0_1_1_n_n.rhsBatch by decide), dif_pos (show (1 : Fin S24x16384.rank) ∈ dot_S24x4_S24x16384_S4x16384_0_0_1_1_n_n.rhsNonContracting by decide)]
  rfl

/-- The product into the zero block, at (j, t): the sum over the 24 rows l of table (l, j) times block (l, t). -/
private theorem tableDot_apply (A : FVec Ideal S24x4 .bf16) (B : FVec Ideal S24x16384 .bf16) (j : Fin 4) (t : Fin 16384) :
    matmul (F := Ideal) dot_S24x4_S24x16384_S4x16384_0_0_1_1_n_n none A B (constant (F := Ideal) S4x16384 .f32 0x00000000#32) (ix2 j t)
      = ∑ l : Fin 24, A (ix2 l j) * B (ix2 l t) := by
  simp only [matmul]
  rw [Ideal.matmul_constant_zero_apply, ← Equiv.sum_comp (ValueIdx.contrEquiv1 dot_S24x4_S24x16384_S4x16384_0_0_1_1_n_n 24 rfl rfl).symm]
  refine Finset.sum_congr rfl fun k _ => ?_
  have hk := ValueIdx.contrEquiv1_symm_val dot_S24x4_S24x16384_S4x16384_0_0_1_1_n_n 24 rfl rfl k
  have el : dot_S24x4_S24x16384_S4x16384_0_0_1_1_n_n.lhsIdx (ix2 j t) ((ValueIdx.contrEquiv1 dot_S24x4_S24x16384_S4x16384_0_0_1_1_n_n 24 rfl rfl).symm k) = ix2 k j := funext fun a => Fin.ext (by
    match a with
    | ⟨0, _⟩ => exact (lhs_tab_0 _ _).trans hk
    | ⟨1, _⟩ => exact lhs_tab_1 _ _)
  have er : dot_S24x4_S24x16384_S4x16384_0_0_1_1_n_n.rhsIdx (ix2 j t) ((ValueIdx.contrEquiv1 dot_S24x4_S24x16384_S4x16384_0_0_1_1_n_n 24 rfl rfl).symm k) = ix2 k t := funext fun a => Fin.ext (by
    match a with
    | ⟨0, _⟩ => exact (rhs_tab_0 _ _).trans hk
    | ⟨1, _⟩ => exact rhs_tab_1 _ _)
  rw [el, er]

/-! ## The payload's stages -/

/-- The mean of the four rows, as a row. -/
private def meanRow (x : FVec Ideal S4x16384 .f32) : FVec Ideal S1x16384 .f32 :=
  divf (shapeCast S1x16384 (multiReduction (F := Ideal) .add [0] S16384 x 0x00000000#32 reduces_S4x16384_S16384 (.inl rfl) rfl) shapeCasts_S16384_S1x16384)
    (broadcast S1x16384 (Scalar.ofBits (F := Ideal) .f32 0x40800000#32))

/-- At lane t it is the mean of column t. -/
private theorem meanRow_apply (x : FVec Ideal S4x16384 .f32) (t : Fin 16384) :
    meanRow x (ix2 (0 : Fin 1) t) = mean4 fun k => x (ix2 k t) := by
  unfold meanRow mean4
  show Ideal.div (shapeCast S1x16384 (multiReduction (F := Ideal) .add [0] S16384 x 0x00000000#32 reduces_S4x16384_S16384 (.inl rfl) rfl) shapeCasts_S16384_S1x16384 (ix2 (0 : Fin 1) t)) fourW = _
  rw [shapeCast_a_1a_apply, colSum_apply]

/-- Each row less the mean row. -/
private def centredRows (x : FVec Ideal S4x16384 .f32) : FVec Ideal S4x16384 .f32 :=
  subf x (broadcastTo S4x16384 (meanRow x) broadcasts_S1x16384_S4x16384)

/-- At (j, t) it is feature j of column t less the column's mean. -/
private theorem centredRows_apply (x : FVec Ideal S4x16384 .f32) (j : Fin 4) (t : Fin 16384) :
    centredRows x (ix2 j t) = centered (fun k => x (ix2 k t)) j := by
  unfold centredRows centered
  show x (ix2 j t) - broadcastTo S4x16384 (meanRow x) broadcasts_S1x16384_S4x16384 (ix2 j t) = _
  rw [broadcastTo_1b_ab_apply, meanRow_apply]

/-- The mean of the squared centred rows, as a row. -/
private def varRow (x : FVec Ideal S4x16384 .f32) : FVec Ideal S1x16384 .f32 :=
  meanRow (mulf (centredRows x) (centredRows x))

/-- At lane t it is the variance of column t. -/
private theorem varRow_apply (x : FVec Ideal S4x16384 .f32) (t : Fin 16384) :
    varRow x (ix2 (0 : Fin 1) t) = variance fun k => x (ix2 k t) := by
  unfold varRow variance
  rw [meanRow_apply]
  refine congrArg mean4 (funext fun k => ?_)
  show centredRows x (ix2 k t) * centredRows x (ix2 k t) = _
  rw [centredRows_apply]

/-- The clipped table row of each lane's position. -/
private def idRow (p : FVec Ideal S1x16384 .f32) : IVec S1x16384 32 :=
  minsi (broadcast S1x16384 23#32) (maxsi (broadcast S1x16384 0#32)
    (fptosi 32 (mulf p (broadcast S1x16384 (Scalar.ofBits (F := Ideal) .f32 0x41C00000#32)))))

private theorem idRow_apply (p : FVec Ideal S1x16384 .f32) (t : Fin 16384) :
    idRow p (ix2 (0 : Fin 1) t) = layerId (p (ix2 (0 : Fin 1) t)) := rfl

/-- The 24-row block whose column t has 1 at the row that is lane t's id and 0 elsewhere. -/
private def hotCol (p : FVec Ideal S1x16384 .f32) : FVec Ideal S24x16384 .bf16 :=
  truncf .bf16 (sitofp (F := Ideal) .f32 (extui 32 (cmpi .eq (iota .tc S24x16384 32 [0] iota_S24x16384_d0_w32)
    (broadcastTo S24x16384 (idRow p) broadcasts_S1x16384_S24x16384)) natLt_1_32)) bitsLt_bf16_f32

private theorem hotCol_apply (p : FVec Ideal S1x16384 .f32) (l : Fin 24) (t : Fin 16384) :
    hotCol p (ix2 l t) = oneHot l (layerId (p (ix2 (0 : Fin 1) t))) := by
  unfold hotCol oneHot
  show ((((IntOp.cmpi .eq (iota .tc S24x16384 32 [0] iota_S24x16384_d0_w32 (ix2 l t))
    (broadcastTo S24x16384 (idRow p) broadcasts_S1x16384_S24x16384 (ix2 l t))).setWidth 32).toInt : ℝ) : EReal) = _
  rw [iota_single_apply, broadcastTo_1b_ab_apply, idRow_apply]

/-- A 24 × 4 table against a 24-row block, contracted over the rows. -/
private def pick (T : FVec Ideal S24x4 .f32) (H : FVec Ideal S24x16384 .bf16) : FVec Ideal S4x16384 .f32 :=
  matmul (F := Ideal) dot_S24x4_S24x16384_S4x16384_0_0_1_1_n_n none (truncf .bf16 T bitsLt_bf16_f32) H
    (constant (F := Ideal) S4x16384 .f32 0x00000000#32)

private theorem pick_apply (T : FVec Ideal S24x4 .f32) (H : FVec Ideal S24x16384 .bf16) (j : Fin 4) (t : Fin 16384) :
    pick T H (ix2 j t) = ∑ l : Fin 24, T (ix2 l j) * H (ix2 l t) := by
  unfold pick
  rw [tableDot_apply]
  rfl

/-- The payload is these stages put together. -/
private theorem pay3_stages (v0 : Vec Ideal S4x16384 .f32) (v2 : Vec Ideal S1x16384 .f32) (v33 v36 : Vec Ideal S24x4 .f32) :
    k0_pay3 (F := Ideal) v0 v2 v33 v36
      = addf (mulf (mulf (centredRows (shapeCast S4x16384 v0 shapeCasts_S4x16384_S4x16384))
            (broadcastTo S4x16384 (rsqrt (addf (varRow (shapeCast S4x16384 v0 shapeCasts_S4x16384_S4x16384))
              (broadcast S1x16384 (Scalar.ofBits (F := Ideal) .f32 0x3727C5AC#32)))) broadcasts_S1x16384_S4x16384))
          (pick v33 (hotCol (k0_pay2 (F := Ideal) v2))))
        (pick v36 (hotCol (k0_pay2 (F := Ideal) v2))) := rfl

/-! ## The two payloads at one lane -/

/-- The position row is the loaded row. -/
theorem position_apply (v2 : Vec Ideal S1x16384 .f32) (t : Fin 16384) :
    k0_pay2 (F := Ideal) v2 (ix2 (0 : Fin 1) t) = v2 (ix2 (0 : Fin 1) t) := by
  unfold k0_pay2
  exact congrFun (shapeCast_self v2 shapeCasts_S1x16384_S1x16384) _

/-- Row j, lane t of the normalized, scaled and shifted features: the first spelling of column t. -/
theorem layerNorm_apply (v0 : Vec Ideal S4x16384 .f32) (v2 : Vec Ideal S1x16384 .f32) (v33 v36 : Vec Ideal S24x4 .f32)
    (j : Fin 4) (t : Fin 16384) :
    k0_pay3 (F := Ideal) v0 v2 v33 v36 (ix2 j t)
      = lnK (fun k => v0 (ix2 k t)) (v2 (ix2 (0 : Fin 1) t)) (fun l j' => v33 (ix2 l j')) (fun l j' => v36 (ix2 l j')) j := by
  have e2 : k0_pay2 (F := Ideal) v2 = v2 := shapeCast_self v2 shapeCasts_S1x16384_S1x16384
  rw [pay3_stages, shapeCast_self v0 shapeCasts_S4x16384_S4x16384, e2]
  unfold lnK
  show centredRows v0 (ix2 j t)
        * broadcastTo S4x16384 (rsqrt (addf (varRow v0) (broadcast S1x16384 (Scalar.ofBits (F := Ideal) .f32 0x3727C5AC#32)))) broadcasts_S1x16384_S4x16384 (ix2 j t)
        * pick v33 (hotCol v2) (ix2 j t) + pick v36 (hotCol v2) (ix2 j t) = _
  rw [broadcastTo_1b_ab_apply, centredRows_apply, pick_apply, pick_apply]
  show _ * Ideal.rsqrt (varRow v0 (ix2 (0 : Fin 1) t) + epsW) * _ + _ = _
  rw [varRow_apply]
  simp only [hotCol_apply]

end Cert.KernelIdeal.RouterPay

end
-- ==== Proof.PayMLP.lean ====
/-
  The kernel body's stored payload read at one lane t: three matrix-unit products into zero accumulators, each a sum
  over the contracted rows of weight · activation, with a bias column and max(·, 0) between them: the perceptron
  mlpK of the lane's input column (the four feature rows, then the position row).
-/
import proofs.«118490_j64175401337509_1_alg».proof.Proof.Gen.KernelIdeal.Skeleton
import proofs.«118490_j64175401337509_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RouterPay

open Cert.KernelIdeal Cert.KernelIdeal.Gen Idealize.ShloMosaic Idealize.ShloMosaic.ValueIdx Cert.Router

/-! ### The first product: [5, 64] against [5, 16384] over the 5 input rows -/

/-- The left operand's row is the contracted coordinate … -/
private theorem lhs_first_0 (i : S64x16384.Idx) (q : dot_S5x64_S5x16384_S64x16384_0_0_1_1_n_n.contr.Idx) :
    (dot_S5x64_S5x16384_S64x16384_0_0_1_1_n_n.lhsIdx i q 0).val = (q ⟨0, by decide⟩).val :=
  dot_S5x64_S5x16384_S64x16384_0_0_1_1_n_n.lhsIdx_val_of_single rfl i q
/-- … its column the result's row. -/
private theorem lhs_first_1 (i : S64x16384.Idx) (q : dot_S5x64_S5x16384_S64x16384_0_0_1_1_n_n.contr.Idx) :
    (dot_S5x64_S5x16384_S64x16384_0_0_1_1_n_n.lhsIdx i q 1).val = (i 0).val := by
  unfold DotDims.lhsIdx
  rw [dif_neg (show ¬(1 : Fin S5x64.rank) ∈ dot_S5x64_S5x16384_S64x16384_0_0_1_1_n_n.lhsBatch by decide), dif_pos (show (1 : Fin S5x64.rank) ∈ dot_S5x64_S5x16384_S64x16384_0_0_1_1_n_n.lhsNonContracting by decide)]
  rfl
/-- The right operand's row is the contracted coordinate … -/
private theorem rhs_first_0 (i : S64x16384.Idx) (q : dot_S5x64_S5x16384_S64x16384_0_0_1_1_n_n.contr.Idx) :
    (dot_S5x64_S5x16384_S64x16384_0_0_1_1_n_n.rhsIdx i q 0).val = (q ⟨0, by decide⟩).val :=
  dot_S5x64_S5x16384_S64x16384_0_0_1_1_n_n.rhsIdx_val_of_single rfl i q
/-- … its column the result's column. -/
private theorem rhs_first_1 (i : S64x16384.Idx) (q : dot_S5x64_S5x16384_S64x16384_0_0_1_1_n_n.contr.Idx) :
    (dot_S5x64_S5x16384_S64x16384_0_0_1_1_n_n.rhsIdx i q 1).val = (i 1).val := by
  unfold DotDims.rhsIdx
  rw [dif_neg (show ¬(1 : Fin S5x16384.rank) ∈ dot_S5x64_S5x16384_S64x16384_0_0_1_1_n_n.rhsBatch by decide), dif_pos (show (1 : Fin S5x16384.rank) ∈ dot_S5x64_S5x16384_S64x16384_0_0_1_1_n_n.rhsNonContracting by decide)]
  rfl

/-- Into the zero accumulator the product at (o, t) is Σ over the 5 contracted rows f of left (f, o) · right (f, t). -/
private theorem product_first (a : FVec Ideal S5x64 .bf16) (x : FVec Ideal S5x16384 .bf16) (o : Fin 64) (t : Fin 16384) :
    matmul (F := Ideal) dot_S5x64_S5x16384_S64x16384_0_0_1_1_n_n none a x (constant (F := Ideal) S64x16384 .f32 0x00000000#32) (ix2 o t)
      = ∑ f : Fin 5, a (ix2 f o) * x (ix2 f t) := by
  refine (Ideal.matmul_constant_zero_apply dot_S5x64_S5x16384_S64x16384_0_0_1_1_n_n none a x (ix2 o t)).trans ?_
  rw [← Equiv.sum_comp (ValueIdx.contrEquiv1 dot_S5x64_S5x16384_S64x16384_0_0_1_1_n_n 5 rfl rfl).symm]
  refine Finset.sum_congr rfl fun f _ => ?_
  have hk := ValueIdx.contrEquiv1_symm_val dot_S5x64_S5x16384_S64x16384_0_0_1_1_n_n 5 rfl rfl f
  have el : dot_S5x64_S5x16384_S64x16384_0_0_1_1_n_n.lhsIdx (ix2 o t) ((ValueIdx.contrEquiv1 dot_S5x64_S5x16384_S64x16384_0_0_1_1_n_n 5 rfl rfl).symm f) = ix2 f o := funext fun b => Fin.ext (by
    match b with
    | ⟨0, _⟩ => exact (lhs_first_0 _ _).trans hk
    | ⟨1, _⟩ => exact lhs_first_1 _ _)
  have er : dot_S5x64_S5x16384_S64x16384_0_0_1_1_n_n.rhsIdx (ix2 o t) ((ValueIdx.contrEquiv1 dot_S5x64_S5x16384_S64x16384_0_0_1_1_n_n 5 rfl rfl).symm f) = ix2 f t := funext fun b => Fin.ext (by
    match b with
    | ⟨0, _⟩ => exact (rhs_first_0 _ _).trans hk
    | ⟨1, _⟩ => exact rhs_first_1 _ _)
  rw [el, er]

/-! ### The second product: [64, 32] against [64, 16384] over the 64 hidden rows -/

/-- The left operand's row is the contracted coordinate … -/
private theorem lhs_second_0 (i : S32x16384.Idx) (q : dot_S64x32_S64x16384_S32x16384_0_0_1_1_n_n.contr.Idx) :
    (dot_S64x32_S64x16384_S32x16384_0_0_1_1_n_n.lhsIdx i q 0).val = (q ⟨0, by decide⟩).val :=
  dot_S64x32_S64x16384_S32x16384_0_0_1_1_n_n.lhsIdx_val_of_single rfl i q
/-- … its column the result's row. -/
private theorem lhs_second_1 (i : S32x16384.Idx) (q : dot_S64x32_S64x16384_S32x16384_0_0_1_1_n_n.contr.Idx) :
    (dot_S64x32_S64x16384_S32x16384_0_0_1_1_n_n.lhsIdx i q 1).val = (i 0).val := by
  unfold DotDims.lhsIdx
  rw [dif_neg (show ¬(1 : Fin S64x32.rank) ∈ dot_S64x32_S64x16384_S32x16384_0_0_1_1_n_n.lhsBatch by decide), dif_pos (show (1 : Fin S64x32.rank) ∈ dot_S64x32_S64x16384_S32x16384_0_0_1_1_n_n.lhsNonContracting by decide)]
  rfl
/-- The right operand's row is the contracted coordinate … -/
private theorem rhs_second_0 (i : S32x16384.Idx) (q : dot_S64x32_S64x16384_S32x16384_0_0_1_1_n_n.contr.Idx) :
    (dot_S64x32_S64x16384_S32x16384_0_0_1_1_n_n.rhsIdx i q 0).val = (q ⟨0, by decide⟩).val :=
  dot_S64x32_S64x16384_S32x16384_0_0_1_1_n_n.rhsIdx_val_of_single rfl i q
/-- … its column the result's column. -/
private theorem rhs_second_1 (i : S32x16384.Idx) (q : dot_S64x32_S64x16384_S32x16384_0_0_1_1_n_n.contr.Idx) :
    (dot_S64x32_S64x16384_S32x16384_0_0_1_1_n_n.rhsIdx i q 1).val = (i 1).val := by
  unfold DotDims.rhsIdx
  rw [dif_neg (show ¬(1 : Fin S64x16384.rank) ∈ dot_S64x32_S64x16384_S32x16384_0_0_1_1_n_n.rhsBatch by decide), dif_pos (show (1 : Fin S64x16384.rank) ∈ dot_S64x32_S64x16384_S32x16384_0_0_1_1_n_n.rhsNonContracting by decide)]
  rfl

/-- Into the zero accumulator the product at (q, t) is Σ over the 64 contracted rows o of left (o, q) · right (o, t). -/
private theorem product_second (a : FVec Ideal S64x32 .bf16) (x : FVec Ideal S64x16384 .bf16) (q : Fin 32) (t : Fin 16384) :
    matmul (F := Ideal) dot_S64x32_S64x16384_S32x16384_0_0_1_1_n_n none a x (constant (F := Ideal) S32x16384 .f32 0x00000000#32) (ix2 q t)
      = ∑ o : Fin 64, a (ix2 o q) * x (ix2 o t) := by
  refine (Ideal.matmul_constant_zero_apply dot_S64x32_S64x16384_S32x16384_0_0_1_1_n_n none a x (ix2 q t)).trans ?_
  rw [← Equiv.sum_comp (ValueIdx.contrEquiv1 dot_S64x32_S64x16384_S32x16384_0_0_1_1_n_n 64 rfl rfl).symm]
  refine Finset.sum_congr rfl fun o _ => ?_
  have hk := ValueIdx.contrEquiv1_symm_val dot_S64x32_S64x16384_S32x16384_0_0_1_1_n_n 64 rfl rfl o
  have el : dot_S64x32_S64x16384_S32x16384_0_0_1_1_n_n.lhsIdx (ix2 q t) ((ValueIdx.contrEquiv1 dot_S64x32_S64x16384_S32x16384_0_0_1_1_n_n 64 rfl rfl).symm o) = ix2 o q := funext fun b => Fin.ext (by
    match b with
    | ⟨0, _⟩ => exact (lhs_second_0 _ _).trans hk
    | ⟨1, _⟩ => exact lhs_second_1 _ _)
  have er : dot_S64x32_S64x16384_S32x16384_0_0_1_1_n_n.rhsIdx (ix2 q t) ((ValueIdx.contrEquiv1 dot_S64x32_S64x16384_S32x16384_0_0_1_1_n_n 64 rfl rfl).symm o) = ix2 o t := funext fun b => Fin.ext (by
    match b with
    | ⟨0, _⟩ => exact (rhs_second_0 _ _).trans hk
    | ⟨1, _⟩ => exact rhs_second_1 _ _)
  rw [el, er]

/-! ### The third product: [32, 1] against [32, 16384] over the 32 hidden rows -/

/-- The left operand's row is the contracted coordinate … -/
private theorem lhs_third_0 (i : S1x16384.Idx) (q : dot_S32x1_S32x16384_S1x16384_0_0_1_1_n_n.contr.Idx) :
    (dot_S32x1_S32x16384_S1x16384_0_0_1_1_n_n.lhsIdx i q 0).val = (q ⟨0, by decide⟩).val :=
  dot_S32x1_S32x16384_S1x16384_0_0_1_1_n_n.lhsIdx_val_of_single rfl i q
/-- … its column the result's row. -/
private theorem lhs_third_1 (i : S1x16384.Idx) (q : dot_S32x1_S32x16384_S1x16384_0_0_1_1_n_n.contr.Idx) :
    (dot_S32x1_S32x16384_S1x16384_0_0_1_1_n_n.lhsIdx i q 1).val = (i 0).val := by
  unfold DotDims.lhsIdx
  rw [dif_neg (show ¬(1 : Fin S32x1.rank) ∈ dot_S32x1_S32x16384_S1x16384_0_0_1_1_n_n.lhsBatch by decide), dif_pos (show (1 : Fin S32x1.rank) ∈ dot_S32x1_S32x16384_S1x16384_0_0_1_1_n_n.lhsNonContracting by decide)]
  rfl
/-- The right operand's row is the contracted coordinate … -/
private theorem rhs_third_0 (i : S1x16384.Idx) (q : dot_S32x1_S32x16384_S1x16384_0_0_1_1_n_n.contr.Idx) :
    (dot_S32x1_S32x16384_S1x16384_0_0_1_1_n_n.rhsIdx i q 0).val = (q ⟨0, by decide⟩).val :=
  dot_S32x1_S32x16384_S1x16384_0_0_1_1_n_n.rhsIdx_val_of_single rfl i q
/-- … its column the result's column. -/
private theorem rhs_third_1 (i : S1x16384.Idx) (q : dot_S32x1_S32x16384_S1x16384_0_0_1_1_n_n.contr.Idx) :
    (dot_S32x1_S32x16384_S1x16384_0_0_1_1_n_n.rhsIdx i q 1).val = (i 1).val := by
  unfold DotDims.rhsIdx
  rw [dif_neg (show ¬(1 : Fin S32x16384.rank) ∈ dot_S32x1_S32x16384_S1x16384_0_0_1_1_n_n.rhsBatch by decide), dif_pos (show (1 : Fin S32x16384.rank) ∈ dot_S32x1_S32x16384_S1x16384_0_0_1_1_n_n.rhsNonContracting by decide)]
  rfl

/-- Into the zero accumulator the product at (u, t) is Σ over the 32 contracted rows q of left (q, u) · right (q, t). -/
private theorem product_third (a : FVec Ideal S32x1 .bf16) (x : FVec Ideal S32x16384 .bf16) (u : Fin 1) (t : Fin 16384) :
    matmul (F := Ideal) dot_S32x1_S32x16384_S1x16384_0_0_1_1_n_n none a x (constant (F := Ideal) S1x16384 .f32 0x00000000#32) (ix2 u t)
      = ∑ q : Fin 32, a (ix2 q u) * x (ix2 q t) := by
  refine (Ideal.matmul_constant_zero_apply dot_S32x1_S32x16384_S1x16384_0_0_1_1_n_n none a x (ix2 u t)).trans ?_
  rw [← Equiv.sum_comp (ValueIdx.contrEquiv1 dot_S32x1_S32x16384_S1x16384_0_0_1_1_n_n 32 rfl rfl).symm]
  refine Finset.sum_congr rfl fun q _ => ?_
  have hk := ValueIdx.contrEquiv1_symm_val dot_S32x1_S32x16384_S1x16384_0_0_1_1_n_n 32 rfl rfl q
  have el : dot_S32x1_S32x16384_S1x16384_0_0_1_1_n_n.lhsIdx (ix2 u t) ((ValueIdx.contrEquiv1 dot_S32x1_S32x16384_S1x16384_0_0_1_1_n_n 32 rfl rfl).symm q) = ix2 q u := funext fun b => Fin.ext (by
    match b with
    | ⟨0, _⟩ => exact (lhs_third_0 _ _).trans hk
    | ⟨1, _⟩ => exact lhs_third_1 _ _)
  have er : dot_S32x1_S32x16384_S1x16384_0_0_1_1_n_n.rhsIdx (ix2 u t) ((ValueIdx.contrEquiv1 dot_S32x1_S32x16384_S1x16384_0_0_1_1_n_n 32 rfl rfl).symm q) = ix2 q t := funext fun b => Fin.ext (by
    match b with
    | ⟨0, _⟩ => exact (rhs_third_0 _ _).trans hk
    | ⟨1, _⟩ => exact rhs_third_1 _ _)
  rw [el, er]

/-! ### The layout operations between the products -/

/-- A one-column array broadcast along the lanes reads, at (p, c), the column's row p. -/
private theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column t of the five stacked rows is the lane's input: rows 0 … 3 the four feature rows, row 4 the position row. -/
private theorem stacked_apply (v3 : FVec Ideal S1x16384 .f32) (v40 : FVec Ideal S4x16384 .f32)
    (h : Shape.Concatenates [S4x16384, S1x16384] S5x16384 0) (f : Fin 5) (t : Fin 16384) :
    concatenate S5x16384 0 [⟨S4x16384, v40⟩, ⟨S1x16384, v3⟩] h (ix2 f t)
      = hvec (fun j => v40 (ix2 j t)) (v3 (ix2 (0 : Fin 1) t)) f := by
  unfold hvec
  by_cases hf : f.val < 4
  · rw [dif_pos hf]
    exact concatenate_pair_apply_left (0 : Fin S5x16384.rank) v40 v3 h (ix2 f t) rfl (ix2 (⟨f.val, hf⟩ : Fin 4) t)
      (fun b => match b with | ⟨0, _⟩ => rfl | ⟨1, _⟩ => rfl)
  · rw [dif_neg hf]
    exact concatenate_pair_apply_right (0 : Fin S5x16384.rank) v40 v3 h (ix2 f t) rfl rfl (ix2 (0 : Fin 1) t)
      (fun b hb => match b, hb with
        | ⟨0, _⟩, hb => absurd rfl hb
        | ⟨1, _⟩, _ => rfl)
      (by show 0 + 4 = f.val; have := f.isLt; omega)

/-! ### The three layers, each read at one entry -/

/-- The first layer at (o, t): max(Σ_f W1[f, o] · h_t[f] + c1[o], 0), h_t the lane's input column. -/
private theorem layer_first (v3 : FVec Ideal S1x16384 .f32) (v40 : FVec Ideal S4x16384 .f32) (v43 : FVec Ideal S5x64 .f32)
    (v46 : FVec Ideal S64x1 .f32) (hc : Shape.Concatenates [S4x16384, S1x16384] S5x16384 0) (hb : FTy.bits .bf16 < FTy.bits .f32)
    (hs : S64x1.ShapeCasts S64x1) (hbc : S64x1.Broadcasts S64x16384) (o : Fin 64) (t : Fin 16384) :
    maximumf (addf (matmul (F := Ideal) dot_S5x64_S5x16384_S64x16384_0_0_1_1_n_n none (truncf .bf16 v43 hb)
        (truncf .bf16 (concatenate S5x16384 0 [⟨S4x16384, v40⟩, ⟨S1x16384, v3⟩] hc) hb)
        (constant (F := Ideal) S64x16384 .f32 0x00000000#32))
      (broadcastTo S64x16384 (shapeCast S64x1 v46 hs) hbc))
      (broadcast S64x16384 (Scalar.ofBits (F := Ideal) .f32 0x00000000#32)) (ix2 o t)
      = max ((∑ f : Fin 5, v43 (ix2 f o) * hvec (fun j => v40 (ix2 j t)) (v3 (ix2 (0 : Fin 1) t)) f) + v46 (ix2 o (0 : Fin 1))) zeroW := by
  rw [shapeCast_self]
  refine (congrArg (fun z => max z zeroW) (congrArg₂ (· + ·) (product_first _ _ o t) (broadcastTo_column_apply v46 hbc o t))).trans ?_
  refine congrArg (fun z => max (z + v46 (ix2 o (0 : Fin 1))) zeroW) (Finset.sum_congr rfl fun f _ => ?_)
  exact congrArg (v43 (ix2 f o) * ·) (stacked_apply v3 v40 hc f t)

/-- The second layer at (q, t): max(Σ_o W2[o, q] · x[o, t] + c2[q], 0). -/
private theorem layer_second (x : FVec Ideal S64x16384 .f32) (v53 : FVec Ideal S64x32 .f32) (v56 : FVec Ideal S32x1 .f32)
    (hb : FTy.bits .bf16 < FTy.bits .f32) (hs : S32x1.ShapeCasts S32x1) (hbc : S32x1.Broadcasts S32x16384)
    (q : Fin 32) (t : Fin 16384) :
    maximumf (addf (matmul (F := Ideal) dot_S64x32_S64x16384_S32x16384_0_0_1_1_n_n none (truncf .bf16 v53 hb)
        (truncf .bf16 x hb) (constant (F := Ideal) S32x16384 .f32 0x00000000#32))
      (broadcastTo S32x16384 (shapeCast S32x1 v56 hs) hbc))
      (broadcast S32x16384 (Scalar.ofBits (F := Ideal) .f32 0x00000000#32)) (ix2 q t)
      = max ((∑ o : Fin 64, v53 (ix2 o q) * x (ix2 o t)) + v56 (ix2 q (0 : Fin 1))) zeroW := by
  rw [shapeCast_self]
  exact congrArg (fun z => max z zeroW) (congrArg₂ (· + ·) (product_second _ _ q t) (broadcastTo_column_apply v56 hbc q t))

/-- The third layer at lane t: Σ_q W3[q] · x[q, t] + c3. -/
private theorem layer_third (x : FVec Ideal S32x16384 .f32) (v63 : FVec Ideal S32x1 .f32) (v66 : FVec Ideal S1x1 .f32)
    (hb : FTy.bits .bf16 < FTy.bits .f32) (hs : S1x1.ShapeCasts S1x1) (hbc : S1x1.Broadcasts S1x16384)
    (hd : S1x16384.ShapeCasts S16384) (t : Fin 16384) :
    shapeCast S16384 (addf (matmul (F := Ideal) dot_S32x1_S32x16384_S1x16384_0_0_1_1_n_n none (truncf .bf16 v63 hb)
        (truncf .bf16 x hb) (constant (F := Ideal) S1x16384 .f32 0x00000000#32))
      (broadcastTo S1x16384 (shapeCast S1x1 v66 hs) hbc)) hd (ix1 t)
      = (∑ q : Fin 32, v63 (ix2 q (0 : Fin 1)) * x (ix2 q t)) + v66 (ix2 (0 : Fin 1) (0 : Fin 1)) := by
  rw [shapeCast_self]
  refine (shapeCast_1a_a_apply _ hd t).trans ?_
  exact congrArg₂ (· + ·) (product_third _ _ (0 : Fin 1) t) (broadcastTo_column_apply v66 hbc (0 : Fin 1) t)

/-- Lane t of the stored vector is the perceptron of column t of the concatenated rows. -/
theorem perceptron_apply (v3 : FVec Ideal S1x16384 .f32) (v40 : FVec Ideal S4x16384 .f32) (v43 : Vec Ideal S5x64 .f32)
    (v46 : Vec Ideal S64x1 .f32) (v53 : Vec Ideal S64x32 .f32) (v56 : Vec Ideal S32x1 .f32) (v63 : Vec Ideal S32x1 .f32)
    (v66 : Vec Ideal S1x1 .f32) (t : Fin 16384) :
    k0_pay1 (F := Ideal) v3 v40 v43 v46 v53 v56 v63 v66 (ix1 t)
      = mlpK (hvec (fun j => v40 (ix2 j t)) (v3 (ix2 (0 : Fin 1) t))) (fun f o => v43 (ix2 f o)) (fun o => v46 (ix2 o (0 : Fin 1)))
          (fun o q => v53 (ix2 o q)) (fun q => v56 (ix2 q (0 : Fin 1))) (fun q => v63 (ix2 q (0 : Fin 1)))
          (v66 (ix2 (0 : Fin 1) (0 : Fin 1))) := by
  unfold k0_pay1 mlpK
  refine (layer_third _ v63 v66 _ _ _ _ t).trans ?_
  refine congrArg (· + v66 (ix2 (0 : Fin 1) (0 : Fin 1))) (Finset.sum_congr rfl fun q _ => ?_)
  refine congrArg (v63 (ix2 q (0 : Fin 1)) * ·) ?_
  refine (layer_second _ v53 v56 _ _ _ q t).trans ?_
  refine congrArg (fun z => max (z + v56 (ix2 q (0 : Fin 1))) zeroW) (Finset.sum_congr rfl fun o _ => ?_)
  refine congrArg (v53 (ix2 o q) * ·) ?_
  exact layer_first v3 v40 v43 v46 _ _ _ _ o t

end Cert.KernelIdeal.RouterPay

end
-- ==== Proof.Blocks.lean ====
/-
  From the kernel's blocks to its result. At grid point i the body stores, lane by lane, token 16384 · i + t's number
  (first spelling) of the blocks it was given; the 64 blocks tile the 1048576-long output, which is therefore flatK
  of the arguments.
-/
import proofs.«118490_j64175401337509_1_alg».proof.Proof.Gen.KernelIdeal.Frame
import proofs.«118490_j64175401337509_1_alg».proof.Proof.Arrays
import proofs.«118490_j64175401337509_1_alg».proof.Proof.PayLN
import proofs.«118490_j64175401337509_1_alg».proof.Proof.PayMLP
import proofs.«118490_j64175401337509_1_alg».proof.Proof.Entry
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RouterValue

open Cert.KernelIdeal Cert.KernelIdeal.Gen Idealize.ShloMosaic Idealize.ShloMosaic.TcCoe Idealize.SL.Sem Idealize.ShloMosaic.ValueIdx Cert.Router
open Idealize.ShloMosaic.Pipeline (Dat)

variable (m : (ℓ : Loc nD τ sig) → Buf (Elt Ideal) ℓ) (ρ : Dev nD → PrngReg)

/-- Offsets written as literal zeros are the zero offsets (rank 1 and rank 2). -/
private theorem zeros1 : (![0] : Fin 1 → Nat) = fun _ => 0 := funext fun a => by fin_cases a <;> rfl
private theorem zeros2 : (![0, 0] : Fin 2 → Nat) = fun _ => 0 := funext fun a => by fin_cases a <;> rfl

/-- Rows 0 … 3 of the 5-row block, read from offset (0, 0): row k, lane t is the block's entry (k, t). -/
private theorem ld_features (x0 : Vec Ideal S5x16384 .f32) (k : Fin 4) (t : Fin 16384) :
    View.ld x0 r0_0 (ix2 k t) = x0 (ix2 (⟨k.val, by omega⟩ : Fin 5) t) := by
  show x0 _ = x0 _
  congr 1
  funext a
  apply Fin.ext
  match a with
  | ⟨0, _⟩ => show 0 + 1 * k.val = k.val; omega
  | ⟨1, _⟩ => show 0 + 1 * t.val = t.val; omega

/-- Row 4 of the block, read from offset (4, 0): its one row at lane t is the block's entry (4, t). -/
private theorem ld_position (x0 : Vec Ideal S5x16384 .f32) (t : Fin 16384) :
    View.ld x0 r0_1 (ix2 (0 : Fin 1) t) = x0 (ix2 (⟨4, by omega⟩ : Fin 5) t) := by
  show x0 _ = x0 _
  congr 1
  funext a
  apply Fin.ext
  match a with
  | ⟨0, _⟩ => show 4 + 1 * 0 = 4; omega
  | ⟨1, _⟩ => show 0 + 1 * t.val = t.val; omega

/-- Lane t of what the body leaves in the output's staging buffer, from the nine input blocks: one token's number. -/
theorem block_apply (x0 : Vec Ideal S5x16384 .f32) (x1 x2 : Vec Ideal S24x4 .f32) (x3 : Vec Ideal S5x64 .f32) (x4 : Vec Ideal S64x1 .f32)
    (x5 : Vec Ideal S64x32 .f32) (x6 x7 : Vec Ideal S32x1 .f32) (x8 : Vec Ideal S1x1 .f32) (t : Fin 16384) :
    out0_9 (F := Ideal) x0 x1 x2 x3 x4 x5 x6 x7 x8 (ix1 t)
      = tokK (fun k => x0 (ix2 (⟨k.val, by omega⟩ : Fin 5) t)) (x0 (ix2 (⟨4, by omega⟩ : Fin 5) t)) (matOf x1) (matOf x2) (matOf x3) (colOf x4)
          (matOf x5) (colOf x6) (colOf x7) (x8 (ix2 (0 : Fin 1) (0 : Fin 1))) := by
  unfold out0_9
  rw [View.canon_unit_zero zeros1]
  simp only [View.ld_unit_zero (S := S24x4) zeros2, View.ld_unit_zero (S := S5x64) zeros2,
    View.ld_unit_zero (S := S64x1) zeros2, View.ld_unit_zero (S := S64x32) zeros2,
    View.ld_unit_zero (S := S32x1) zeros2, View.ld_unit_zero (S := S1x1) zeros2]
  refine (RouterPay.perceptron_apply _ _ _ _ _ _ _ _ t).trans ?_
  unfold tokK
  refine congrArg (fun h => mlpK h (matOf x3) (colOf x4) (matOf x5) (colOf x6) (colOf x7) (x8 (ix2 (0 : Fin 1) (0 : Fin 1)))) ?_
  refine congrArg₂ hvec (funext fun j => ?_) ((RouterPay.position_apply _ t).trans (ld_position x0 t))
  refine (RouterPay.layerNorm_apply _ _ _ _ j t).trans ?_
  rw [ld_position x0 t, show (fun k : Fin 4 => View.ld x0 r0_0 (ix2 k t)) = fun k : Fin 4 => x0 (ix2 (⟨k.val, by omega⟩ : Fin 5) t) from
    funext fun k => ld_features x0 k t]

/-! ## Where each block sits in its array

  The grid has 64 points. At point t the input's block is columns 16384·t … 16384·t + 16383 of the 5 × 1048576 array
  (block index (0, t)), the output's block is entries 16384·t … 16384·t + 16383 of the 1048576-long array (block
  index t), and every table, weight and bias is one block, the whole array, at every point (block index (0, 0)).
  An entry of a block sits in its array, on each axis, at block index × block size + its own coordinate. -/

/-- The block index of every window at every grid point. -/
private theorem block_indices : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = t.val :=
  (by decide +kernel : ∀ t : Fin grid0.N, _)

/-- The input's block at point t: its entry (f, s) is the transposed input at (f, 16384·t + s). -/
private theorem features_block (c : Dev nD) (t : Fin cfg0.N) (f : Fin 5) (s : Fin 16384) (n : Fin 1048576)
    (hn : n.val = 16384 * t.val + s.val) :
    (iblk m c 0 t : Vec Ideal S5x16384 .f32) (ix2 f s) = (V m c main_v1 : S5x1048576.Idx → EReal) (ix2 f n) := by
  obtain ⟨e0, e1, -⟩ := block_indices t
  unfold iblk
  rw [View.read_apply]
  show (V m c main_v1 : S5x1048576.Idx → EReal) _ = V m c main_v1 _
  refine congrArg (V m c main_v1 : S5x1048576.Idx → EReal) ?_
  funext a
  apply Fin.ext
  match a with
  | ⟨0, _⟩ => show win0_0.index t (0 : Fin 2) * 5 + 1 * f.val = f.val; rw [e0]; omega
  | ⟨1, _⟩ => show win0_0.index t (1 : Fin 2) * 16384 + 1 * s.val = n.val; rw [e1, hn]; omega

/-- The scale table's one block is the table. -/
private theorem scale_block (c : Dev nD) (t : Fin cfg0.N) :
    (iblk m c 1 t : Vec Ideal S24x4 .f32) = (V m c main_arg1 : S24x4.Idx → EReal) := by
  obtain ⟨-, -, e0, e1, -⟩ := block_indices t
  funext y
  unfold iblk
  rw [View.read_apply]
  show (V m c main_arg1 : S24x4.Idx → EReal) _ = V m c main_arg1 _
  refine congrArg (V m c main_arg1 : S24x4.Idx → EReal) ?_
  funext a
  apply Fin.ext
  match a with
  | ⟨0, _⟩ => show win0_1.index t (0 : Fin 2) * 24 + 1 * (y 0).val = (y 0).val; rw [e0]; omega
  | ⟨1, _⟩ => show win0_1.index t (1 : Fin 2) * 4 + 1 * (y 1).val = (y 1).val; rw [e1]; omega

/-- The shift table's one block is the table. -/
private theorem shift_block (c : Dev nD) (t : Fin cfg0.N) :
    (iblk m c 2 t : Vec Ideal S24x4 .f32) = (V m c main_arg2 : S24x4.Idx → EReal) := by
  obtain ⟨-, -, -, -, e0, e1, -⟩ := block_indices t
  funext y
  unfold iblk
  rw [View.read_apply]
  show (V m c main_arg2 : S24x4.Idx → EReal) _ = V m c main_arg2 _
  refine congrArg (V m c main_arg2 : S24x4.Idx → EReal) ?_
  funext a
  apply Fin.ext
  match a with
  | ⟨0, _⟩ => show win0_2.index t (0 : Fin 2) * 24 + 1 * (y 0).val = (y 0).val; rw [e0]; omega
  | ⟨1, _⟩ => show win0_2.index t (1 : Fin 2) * 4 + 1 * (y 1).val = (y 1).val; rw [e1]; omega

/-- The first layer's weights: one block, the matrix. -/
private theorem weight1_block (c : Dev nD) (t : Fin cfg0.N) :
    (iblk m c 3 t : Vec Ideal S5x64 .f32) = (V m c main_arg3 : S5x64.Idx → EReal) := by
  obtain ⟨-, -, -, -, -, -, e0, e1, -⟩ := block_indices t
  funext y
  unfold iblk
  rw [View.read_apply]
  show (V m c main_arg3 : S5x64.Idx → EReal) _ = V m c main_arg3 _
  refine congrArg (V m c main_arg3 : S5x64.Idx → EReal) ?_
  funext a
  apply Fin.ext
  match a with
  | ⟨0, _⟩ => show win0_3.index t (0 : Fin 2) * 5 + 1 * (y 0).val = (y 0).val; rw [e0]; omega
  | ⟨1, _⟩ => show win0_3.index t (1 : Fin 2) * 64 + 1 * (y 1).val = (y 1).val; rw [e1]; omega

/-- The first layer's bias column: one block, the column. -/
private theorem bias1_block (c : Dev nD) (t : Fin cfg0.N) :
    (iblk m c 4 t : Vec Ideal S64x1 .f32) = (V m c main_v2 : S64x1.Idx → EReal) := by
  obtain ⟨-, -, -, -, -, -, -, -, e0, e1, -⟩ := block_indices t
  funext y
  unfold iblk
  rw [View.read_apply]
  show (V m c main_v2 : S64x1.Idx → EReal) _ = V m c main_v2 _
  refine congrArg (V m c main_v2 : S64x1.Idx → EReal) ?_
  funext a
  apply Fin.ext
  match a with
  | ⟨0, _⟩ => show win0_4.index t (0 : Fin 2) * 64 + 1 * (y 0).val = (y 0).val; rw [e0]; omega
  | ⟨1, _⟩ => show win0_4.index t (1 : Fin 2) * 1 + 1 * (y 1).val = (y 1).val; rw [e1]; omega

/-- The second layer's weights: one block, the matrix. -/
private theorem weight2_block (c : Dev nD) (t : Fin cfg0.N) :
    (iblk m c 5 t : Vec Ideal S64x32 .f32) = (V m c main_arg5 : S64x32.Idx → EReal) := by
  obtain ⟨-, -, -, -, -, -, -, -, -, -, e0, e1, -⟩ := block_indices t
  funext y
  unfold iblk
  rw [View.read_apply]
  show (V m c main_arg5 : S64x32.Idx → EReal) _ = V m c main_arg5 _
  refine congrArg (V m c main_arg5 : S64x32.Idx → EReal) ?_
  funext a
  apply Fin.ext
  match a with
  | ⟨0, _⟩ => show win0_5.index t (0 : Fin 2) * 64 + 1 * (y 0).val = (y 0).val; rw [e0]; omega
  | ⟨1, _⟩ => show win0_5.index t (1 : Fin 2) * 32 + 1 * (y 1).val = (y 1).val; rw [e1]; omega

/-- The second layer's bias column: one block, the column. -/
private theorem bias2_block (c : Dev nD) (t : Fin cfg0.N) :
    (iblk m c 6 t : Vec Ideal S32x1 .f32) = (V m c main_v3 : S32x1.Idx → EReal) := by
  obtain ⟨-, -, -, -, -, -, -, -, -, -, -, -, e0, e1, -⟩ := block_indices t
  funext y
  unfold iblk
  rw [View.read_apply]
  show (V m c main_v3 : S32x1.Idx → EReal) _ = V m c main_v3 _
  refine congrArg (V m c main_v3 : S32x1.Idx → EReal) ?_
  funext a
  apply Fin.ext
  match a with
  | ⟨0, _⟩ => show win0_6.index t (0 : Fin 2) * 32 + 1 * (y 0).val = (y 0).val; rw [e0]; omega
  | ⟨1, _⟩ => show win0_6.index t (1 : Fin 2) * 1 + 1 * (y 1).val = (y 1).val; rw [e1]; omega

/-- The last layer's weight column: one block, the column. -/
private theorem weight3_block (c : Dev nD) (t : Fin cfg0.N) :
    (iblk m c 7 t : Vec Ideal S32x1 .f32) = (V m c main_arg7 : S32x1.Idx → EReal) := by
  obtain ⟨-, -, -, -, -, -, -, -, -, -, -, -, -, -, e0, e1, -⟩ := block_indices t
  funext y
  unfold iblk
  rw [View.read_apply]
  show (V m c main_arg7 : S32x1.Idx → EReal) _ = V m c main_arg7 _
  refine congrArg (V m c main_arg7 : S32x1.Idx → EReal) ?_
  funext a
  apply Fin.ext
  match a with
  | ⟨0, _⟩ => show win0_7.index t (0 : Fin 2) * 32 + 1 * (y 0).val = (y 0).val; rw [e0]; omega
  | ⟨1, _⟩ => show win0_7.index t (1 : Fin 2) * 1 + 1 * (y 1).val = (y 1).val; rw [e1]; omega

/-- The last bias: one block, the 1 × 1 array. -/
private theorem bias3_block (c : Dev nD) (t : Fin cfg0.N) :
    (iblk m c 8 t : Vec Ideal S1x1 .f32) = (V m c main_v4 : S1x1.Idx → EReal) := by
  obtain ⟨-, -, -, -, -, -, -, -, -, -, -, -, -, -, -, -, e0, e1, -⟩ := block_indices t
  funext y
  unfold iblk
  rw [View.read_apply]
  show (V m c main_v4 : S1x1.Idx → EReal) _ = V m c main_v4 _
  refine congrArg (V m c main_v4 : S1x1.Idx → EReal) ?_
  funext a
  apply Fin.ext
  match a with
  | ⟨0, _⟩ => show win0_8.index t (0 : Fin 2) * 1 + 1 * (y 0).val = (y 0).val; rw [e0]; omega
  | ⟨1, _⟩ => show win0_8.index t (1 : Fin 2) * 1 + 1 * (y 1).val = (y 1).val; rw [e1]; omega

/-! ## One lane of one point's result is one token's number -/

/-- Lane s of what point t leaves in the output's buffer is token n = 16384·t + s's number: the block's column s is the
    token's five entries (batch n / 16384 = t, position n % 16384 = s), the tables and weights are the arguments',
    the bias columns the argument vectors. -/
private theorem lane_eq (c : Dev nD) (t : Fin cfg0.N) (s : Fin 16384) (n : Fin 1048576) (hn : n.val = 16384 * t.val + s.val) :
    out0_9 (F := Ideal) (iblk m c 0 t) (iblk m c 1 t) (iblk m c 2 t) (iblk m c 3 t) (iblk m c 4 t) (iblk m c 5 t) (iblk m c 6 t)
        (iblk m c 7 t) (iblk m c 8 t) (ix1 s)
      = flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) n := by
  refine (block_apply (iblk m c 0 t) (iblk m c 1 t) (iblk m c 2 t) (iblk m c 3 t) (iblk m c 4 t) (iblk m c 5 t) (iblk m c 6 t)
    (iblk m c 7 t) (iblk m c 8 t) s).trans ?_
  unfold flatK
  have h0 : (fun k : Fin 4 => (iblk m c 0 t : Vec Ideal S5x16384 .f32) (ix2 (⟨k.val, by omega⟩ : Fin 5) s))
      = feats (m ((c.tc : Thread nD τ).loc main_arg0)) (tokB n) (tokS n) := funext fun k => by
    rw [features_block m c t _ s n hn, RouterEntry.V_features]; rfl
  have hp : (iblk m c 0 t : Vec Ideal S5x16384 .f32) (ix2 (⟨4, by omega⟩ : Fin 5) s)
      = posn (m ((c.tc : Thread nD τ).loc main_arg0)) (tokB n) (tokS n) := by
    rw [features_block m c t _ s n hn, RouterEntry.V_features]; rfl
  have h1 : matOf (iblk m c 1 t : Vec Ideal S24x4 .f32) = matOf (m ((c.tc : Thread nD τ).loc main_arg1)) :=
    congrArg matOf ((scale_block m c t).trans (V_main_arg1 m c))
  have h2 : matOf (iblk m c 2 t : Vec Ideal S24x4 .f32) = matOf (m ((c.tc : Thread nD τ).loc main_arg2)) :=
    congrArg matOf ((shift_block m c t).trans (V_main_arg2 m c))
  have h3 : matOf (iblk m c 3 t : Vec Ideal S5x64 .f32) = matOf (m ((c.tc : Thread nD τ).loc main_arg3)) :=
    congrArg matOf ((weight1_block m c t).trans (V_main_arg3 m c))
  have h4 : colOf (iblk m c 4 t : Vec Ideal S64x1 .f32) = vecOf (m ((c.tc : Thread nD τ).loc main_arg4)) := funext fun o => by
    show (iblk m c 4 t : Vec Ideal S64x1 .f32) (ix2 o (0 : Fin 1)) = _
    rw [bias1_block m c t, RouterEntry.V_bias1]
  have h5 : matOf (iblk m c 5 t : Vec Ideal S64x32 .f32) = matOf (m ((c.tc : Thread nD τ).loc main_arg5)) :=
    congrArg matOf ((weight2_block m c t).trans (V_main_arg5 m c))
  have h6 : colOf (iblk m c 6 t : Vec Ideal S32x1 .f32) = vecOf (m ((c.tc : Thread nD τ).loc main_arg6)) := funext fun q => by
    show (iblk m c 6 t : Vec Ideal S32x1 .f32) (ix2 q (0 : Fin 1)) = _
    rw [bias2_block m c t, RouterEntry.V_bias2]
  have h7 : colOf (iblk m c 7 t : Vec Ideal S32x1 .f32) = colOf (m ((c.tc : Thread nD τ).loc main_arg7)) :=
    congrArg colOf ((weight3_block m c t).trans (V_main_arg7 m c))
  have h8 : (iblk m c 8 t : Vec Ideal S1x1 .f32) (ix2 (0 : Fin 1) (0 : Fin 1)) = m ((c.tc : Thread nD τ).loc main_arg8) (ix1 (0 : Fin 1)) := by
    rw [bias3_block m c t, RouterEntry.V_bias3]
  rw [h0, hp, h1, h2, h3, h4, h5, h6, h7, h8]

/-! ## The 64 blocks tile the output -/

/-- What point t writes back is block t of the token-by-token result. -/
private theorem flushed_eq (c : Dev nD) (t : Fin cfg0.N) :
    (dats m 0 c).flushed 9 t = ((cfg0.win 9).blk t).view.read (Elt Ideal)
      (fun i : S1048576.Idx => flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0)) := by
  show (cfg0.win 9).cut (grid0.coords t) ((dats m 0 c).after 9 t) = _
  rw [after0_9]
  have e9 : win0_9.index t (0 : Fin 1) = t.val := (block_indices t).2.2.2.2.2.2.2.2.2.2.2.2.2.2.2.2.2.2
  funext j
  obtain ⟨s, rfl⟩ : ∃ s : Fin 16384, j = ix1 s := ⟨j 0, eq_ix1 j⟩
  show out0_9 (F := Ideal) (iblk m c 0 t) (iblk m c 1 t) (iblk m c 2 t) (iblk m c 3 t) (iblk m c 4 t) (iblk m c 5 t) (iblk m c 6 t)
        (iblk m c 7 t) (iblk m c 8 t) (ix1 s)
      = flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) ((((cfg0.win 9).blk t).view.emb (ix1 s)) 0)
  refine lane_eq m c t s _ ?_
  show win0_9.index t (0 : Fin 1) * 16384 + 1 * s.val = 16384 * t.val + s.val
  rw [e9]; omega

/-- An entry of the output is in point t's block iff it lies in the block's range. -/
private theorem mem_block (t : Fin cfg0.N) (i : S1048576.Idx) :
    i ∈ ((cfg0.win 9).blk t).view.set ↔ ∀ a : Fin 1, win0_9.index t a * S16384.size a ≤ (i a).val ∧ (i a).val < win0_9.index t a * S16384.size a + S16384.size a := by
  show i ∈ ((View.whole main_v5).slice (win0_9.rect t)).set ↔ _
  rw [View.set_slice_whole, Rect.mem_set_unit]
  exact Iff.rfl

/-- Entry n of the output is in the block of point n / 16384, which writes back. -/
private theorem covered (i : S1048576.Idx) :
    ∃ t : Fin cfg0.N, (cfg0.win 9).flush t = true ∧ i ∈ ((cfg0.win 9).blk t).view.set := by
  have hi : (i 0).val < 1048576 := (i 0).isLt
  have hN : cfg0.N = 64 := N_0
  have hlt : (i 0).val / 16384 < cfg0.N := lt_of_lt_of_eq (by omega : (i 0).val / 16384 < 64) hN.symm
  have e9 : win0_9.index (⟨(i 0).val / 16384, hlt⟩ : Fin cfg0.N) (0 : Fin 1) = (i 0).val / 16384 :=
    (block_indices ⟨(i 0).val / 16384, hlt⟩).2.2.2.2.2.2.2.2.2.2.2.2.2.2.2.2.2.2
  refine ⟨⟨(i 0).val / 16384, hlt⟩, flush0_9 _, ?_⟩
  rw [mem_block]
  intro a
  match a with
  | ⟨0, _⟩ =>
    show win0_9.index (⟨(i 0).val / 16384, hlt⟩ : Fin cfg0.N) (0 : Fin 1) * 16384 ≤ (i 0).val
      ∧ (i 0).val < win0_9.index (⟨(i 0).val / 16384, hlt⟩ : Fin cfg0.N) (0 : Fin 1) * 16384 + 16384
    rw [e9]; omega

/-- The 1048576-long output after the region, token by token: the first spelling of the arguments. -/
theorem final (c : Dev nD) :
    ((dats m 0 c).arrAt 9 cfg0.N : S1048576.Idx → EReal)
      = fun i => flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) := by
  exact (dats m 0 c).arrAt_eq_of_cover 9 _ (fun t _ => flushed_eq m c t) covered

end Cert.KernelIdeal.RouterValue

end
-- ==== Proof.KernelRun.lean ====
/-
  The kernel's run. After the region the 1048576-long output holds the tokens' numbers in token order; the host's last
  operation reshapes it to [64, 16384], so entry (b, s) is token 16384 · b + s's number, which is the array outK. The
  other clauses say that the nine arguments end as they were: the windows' arrays that are arguments are inputs the
  region only reads, and the remaining arguments are written by no host operation.
-/
import proofs.«118490_j64175401337509_1_alg».proof.Proof.Gen.KernelIdeal.Frame
import proofs.«118490_j64175401337509_1_alg».proof.Proof.Arrays
import proofs.«118490_j64175401337509_1_alg».proof.Proof.Blocks
import Idealize.ShloMosaic.Lib.Pipeline.Value
import Idealize.ShloMosaic.Lib.ValueIdx
import Idealize.ShloMosaic.Lib.StableHlo.Run

set_option maxRecDepth 16384

noncomputable section

namespace Cert.KernelIdeal.RouterValue

open Cert.KernelIdeal Cert.KernelIdeal.Gen Idealize.ShloMosaic Idealize.ShloMosaic.TcCoe Idealize.SL.Sem Idealize.ShloMosaic.ValueIdx Cert.Router
open Idealize.ShloMosaic.Pipeline (Dat)

variable (m : (ℓ : Loc nD τ sig) → Buf (Elt Ideal) ℓ) (ρ : Dev nD → PrngReg)

/-- What the host's last reshape leaves in the result: entry (b, s) is the flat output at 16384 · b + s. -/
theorem tail_value (c : Dev nD) :
    Pipeline.afterTail₀ cfgs (dats m) 0 (V0 m) [hostOps1] c main_v6 = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hflat : (Pipeline.withArrays (cfgs 0).spec c (V0 m c) (fun w => (dats m 0 c).arrAt w (cfgs 0).N) (Proc.devRef .tc main_v5) : S1048576.Idx → EReal)
      = fun i => flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) :=
    (Pipeline.withArrays_arr spec0 launch0.win.arr_inj c _ _ 9).trans (final m c)
  unfold Pipeline.afterTail₀
  show StableHlo.after hostOps1 _ (Proc.devRef .tc main_v6) = _
  after_results
  funext i
  show shapeCast S64x16384 (Pipeline.withArrays (cfgs 0).spec c (V0 m c) (fun w => (dats m 0 c).arrAt w (cfgs 0).N) (Proc.devRef .tc main_v5) : S1048576.Idx → EReal) shapeCasts_S1048576_S64x16384 i = _
  rw [hflat]
  have h0 : (i 0).val < 64 := idx2_lt0 i
  have h1 : (i 1).val < 16384 := idx2_lt1 i
  rw [shapeCast_apply _ shapeCasts_S1048576_S64x16384 i (ix1 (⟨(i 0).val * 16384 + (i 1).val, by omega⟩ : Fin 1048576))
    (by rw [Shape.rowMajor_val_one, Shape.rowMajor_val_two]; rfl)]
  exact (outK_eq_flatK _ _ _ _ _ _ _ _ _ i _ rfl).symm

/-- THE KERNEL'S RUN: the result array ends at outK of the arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v6) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_v6 (Pipeline.mem_restRefs_of main_v6 (by decide) (by decide))).trans (tail_value m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.RouterValue

end
-- ==== Proof.lean ====
/-
  A router: per-token layer normalization with table-selected scale and shift, then a 5 → 64 → 32 → 1 perceptron, over
  x : [64, 16384, 5] (four features and a position per token), two 24 × 4 tables and the perceptron's weights.

  The kernel works on the input transposed to [5, 1048576], 16384 tokens (lanes) per grid point: the mean and the
  variance are sums down a lane's four feature rows, the normalized features are c · rsqrt(v + ε), the table rows are
  taken by a matrix product of each table against the one-hot column of the lane's clipped id, and the perceptron is three
  matrix products weight · activation. The reference works on [1048576, 5]: c / sqrt(v + ε), a gather of the tables'
  rows, activation · weight. On the extended reals the perceptrons agree by commutativity of the product alone; the
  one-hot sum reads the gathered row because the clipped id lies in 0 … 23; and c · rsqrt(v + ε) = c / sqrt(v + ε)
  needs v + ε to be a positive real, which it is when the token's features are real numbers: this is where the
  precondition (every input finite) is used, and only for x.

  Proof/Spec.lean has one token's arithmetic in both spellings and the law between them; Proof/Arrays.lean the same over
  the arrays; Proof/RefLN.lean and Proof/RefMLP.lean read the reference's generated run at an index; Proof/PayLN.lean and
  Proof/PayMLP.lean read the kernel body's payloads at a lane; Proof/Entry.lean reads the arrays the region finds and the
  precondition; Proof/Blocks.lean goes from the blocks to the flat result array, Proof/KernelRun.lean through the host's last reshape to
  the kernel's run. The three frames are the
  generated ones; nothing was rewritten by the ideal pass, so there is nothing to preserve.
-/
import proofs.«118490_j64175401337509_1_alg».proof.Defs
import proofs.«118490_j64175401337509_1_alg».proof.Proof.Gen.Kernel
import proofs.«118490_j64175401337509_1_alg».proof.Proof.Gen.Kernel.Skeleton
import proofs.«118490_j64175401337509_1_alg».proof.Proof.Gen.Kernel.Launch
import proofs.«118490_j64175401337509_1_alg».proof.Proof.Gen.Kernel.Points
import proofs.«118490_j64175401337509_1_alg».proof.Proof.Gen.Kernel.Frame
import proofs.«118490_j64175401337509_1_alg».proof.Proof.Gen.KernelIdeal
import proofs.«118490_j64175401337509_1_alg».proof.Proof.Gen.KernelIdeal.Skeleton
import proofs.«118490_j64175401337509_1_alg».proof.Proof.Gen.KernelIdeal.Launch
import proofs.«118490_j64175401337509_1_alg».proof.Proof.Gen.KernelIdeal.Points
import proofs.«118490_j64175401337509_1_alg».proof.Proof.Gen.KernelIdeal.Frame
import proofs.«118490_j64175401337509_1_alg».proof.Proof.Gen.ReferenceIdeal
import proofs.«118490_j64175401337509_1_alg».proof.Proof.Gen.Pre_finite_inputs
import proofs.«118490_j64175401337509_1_alg».proof.Proof.Gen.ReferenceIdeal.Run
import proofs.«118490_j64175401337509_1_alg».proof.Proof.Gen.ReferenceIdeal.Read
import proofs.«118490_j64175401337509_1_alg».proof.Proof.Arrays
import proofs.«118490_j64175401337509_1_alg».proof.Proof.RefMLP
import proofs.«118490_j64175401337509_1_alg».proof.Proof.Entry
import proofs.«118490_j64175401337509_1_alg».proof.Proof.KernelRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its generated run, the result's clause dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the [64, 16384] array that holds, at (b, s), token (b, s)'s number: the kernel in the first
    spelling, the reference in the second, one array because the precondition makes every entry of x real. -/
theorem algebraic : Cert.algebraic_KernelIdeal_ReferenceIdeal := by
  intro m ρ m' ρ' hpre hagree
  refine ⟨fun c => Cert.Router.outR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.RouterValue.run_value m ρ)
    exact Cert.Router.outK_eq_outR _ (Cert.KernelIdeal.RouterEntry.real_of_pre m hpre c) _ _ _ _ _ _ _ _
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v58_eq, Cert.ReferenceIdeal.RouterRef.ref_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
